-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x1000 : Shape := ⟨2, ![65536, 1000]⟩
abbrev S1000x1000 : Shape := ⟨2, ![1000, 1000]⟩
abbrev S65536 : Shape := ⟨1, ![65536]⟩
abbrev S_ : Shape := ⟨0, ![]⟩

class Facts : Prop where
  bcast_S_S65536x1000 : S_.BroadcastsInDim S65536x1000 (![] : Fin 0 → Fin S65536x1000.rank)
  reducesTo_S65536x1000_S_d0_1 : S65536x1000.ReducesTo [0, 1] S_
  h_S_ : 0 < S_.numel
  bcast_S_S1000x1000 : S_.BroadcastsInDim S1000x1000 (![] : Fin 0 → Fin S1000x1000.rank)
  reducesTo_S1000x1000_S_d0_1 : S1000x1000.ReducesTo [0, 1] S_
  bcast_S_S65536 : S_.BroadcastsInDim S65536 (![] : Fin 0 → Fin S65536.rank)
  reducesTo_S65536_S_d0 : S65536.ReducesTo [0] S_

variable [Facts]

def fn_part1 {F : FTy → Type} [FloatOps F] (main_arg2 : IVec S65536 32) (main_v13 : IVec S_ 1) (main_v15 : IVec S65536 1) (main_c_5 : IVec S_ 32) : IVec S_ 1 :=
  let main_v16 : IVec S65536 32 := broadcastInDim S65536 ![] bcast_S_S65536 main_c_5
  let main_v17 : IVec S65536 1 := cmpi .slt main_arg2 main_v16
  let main_v18 : IVec S65536 1 := andi main_v15 main_v17
  let main_c_6 : IVec S_ 1 := constantI S_ 1 1#1
  let main_v19 : IVec S_ 1 := (fun x v => Host.reduce IntOp.andi x v reducesTo_S65536_S_d0 h_S_) main_v18 main_c_6
  let main_v20 : IVec S_ 1 := andi main_v13 main_v19
  main_v20

def fn {F : FTy → Type} [FloatOps F] (main_arg0 : FVec F S65536x1000 .f32) (main_arg1 : FVec F S1000x1000 .f32) (main_arg2 : IVec S65536 32) (main_arg3 : FVec F S1000x1000 .f32) : IVec S_ 1 :=
  let main_v0 : FVec F S65536x1000 .f32 := Host.absf main_arg0
  let main_cst : FVec F S_ .f32 := constant S_ .f32 0x7F800000#32
  let main_v1 : FVec F S65536x1000 .f32 := broadcastInDim S65536x1000 ![] bcast_S_S65536x1000 main_cst
  let main_v2 : IVec S65536x1000 1 := cmpf .olt main_v0 main_v1
  let main_c : IVec S_ 1 := constantI S_ 1 1#1
  let main_v3 : IVec S_ 1 := (fun x v => Host.reduce IntOp.andi x v reducesTo_S65536x1000_S_d0_1 h_S_) main_v2 main_c
  let main_v4 : FVec F S1000x1000 .f32 := Host.absf main_arg1
  let main_cst_0 : FVec F S_ .f32 := constant S_ .f32 0x7F800000#32
  let main_v5 : FVec F S1000x1000 .f32 := broadcastInDim S1000x1000 ![] bcast_S_S1000x1000 main_cst_0
  let main_v6 : IVec S1000x1000 1 := cmpf .olt main_v4 main_v5
  let main_c_1 : IVec S_ 1 := constantI S_ 1 1#1
  let main_v7 : IVec S_ 1 := (fun x v => Host.reduce IntOp.andi x v reducesTo_S1000x1000_S_d0_1 h_S_) main_v6 main_c_1
  let main_v8 : IVec S_ 1 := andi main_v3 main_v7
  let main_v9 : FVec F S1000x1000 .f32 := Host.absf main_arg3
  let main_cst_2 : FVec F S_ .f32 := constant S_ .f32 0x7F800000#32
  let main_v10 : FVec F S1000x1000 .f32 := broadcastInDim S1000x1000 ![] bcast_S_S1000x1000 main_cst_2
  let main_v11 : IVec S1000x1000 1 := cmpf .olt main_v9 main_v10
  let main_c_3 : IVec S_ 1 := constantI S_ 1 1#1
  let main_v12 : IVec S_ 1 := (fun x v => Host.reduce IntOp.andi x v reducesTo_S1000x1000_S_d0_1 h_S_) main_v11 main_c_3
  let main_v13 : IVec S_ 1 := andi main_v8 main_v12
  let main_c_4 : IVec S_ 32 := constantI S_ 32 0#32
  let main_v14 : IVec S65536 32 := broadcastInDim S65536 ![] bcast_S_S65536 main_c_4
  let main_v15 : IVec S65536 1 := cmpi .sge main_arg2 main_v14
  let main_c_5 : IVec S_ 32 := constantI S_ 32 1000#32
  fn_part1 (F := F) main_arg2 main_v13 main_v15 main_c_5
-- ==== Kernel.lean ====
abbrev S65536x1000 : Shape := ⟨2, ![65536, 1000]⟩
abbrev S1000x1000 : Shape := ⟨2, ![1000, 1000]⟩
abbrev S65536 : Shape := ⟨1, ![65536]⟩
abbrev S_ : Shape := ⟨0, ![]⟩
abbrev S65536x1 : Shape := ⟨2, ![65536, 1]⟩
abbrev S16x128 : Shape := ⟨2, ![16, 128]⟩
abbrev S512x1000 : Shape := ⟨2, ![512, 1000]⟩
abbrev S512x1 : Shape := ⟨2, ![512, 1]⟩
abbrev S8x128 : Shape := ⟨2, ![8, 128]⟩
abbrev S1x1 : Shape := ⟨2, ![1, 1]⟩
abbrev S512 : Shape := ⟨1, ![512]⟩
abbrev S1 : Shape := ⟨1, ![1]⟩

abbrev nBuf : Space → Nat
  | .hbm => 18
  | .vmem => 8
  | .smem => 0
  | _ => 0

abbrev bufTy : (tb : Table) → Fin (tcTables nBuf tb) → BufTy
  | .hbm, ⟨0, _⟩ => ⟨S65536x1000, .f32⟩
  | .hbm, ⟨1, _⟩ => ⟨S1000x1000, .f32⟩
  | .hbm, ⟨2, _⟩ => ⟨S65536, .i32⟩
  | .hbm, ⟨3, _⟩ => ⟨S1000x1000, .f32⟩
  | .hbm, ⟨4, _⟩ => ⟨S_, .f32⟩
  | .hbm, ⟨5, _⟩ => ⟨S1000x1000, .f32⟩
  | .hbm, ⟨6, _⟩ => ⟨S1000x1000, .f32⟩
  | .hbm, ⟨7, _⟩ => ⟨S1000x1000, .f32⟩
  | .hbm, ⟨8, _⟩ => ⟨S1000x1000, .bf16⟩
  | .hbm, ⟨9, _⟩ => ⟨S65536x1, .i32⟩
  | .hbm, ⟨10, _⟩ => ⟨S16x128, .f32⟩
  | .hbm, ⟨11, _⟩ => ⟨S1x1, .f32⟩
  | .hbm, ⟨12, _⟩ => ⟨S_, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .local _ .vmem, ⟨0, _⟩ => ⟨S512x1000, .f32⟩
  | .local _ .vmem, ⟨1, _⟩ => ⟨S512x1000, .f32⟩
  | .local _ .vmem, ⟨2, _⟩ => ⟨S1000x1000, .bf16⟩
  | .local _ .vmem, ⟨3, _⟩ => ⟨S512x1, .i32⟩
  | .local _ .vmem, ⟨4, _⟩ => ⟨S512x1, .i32⟩
  | .local _ .vmem, ⟨5, _⟩ => ⟨S8x128, .f32⟩
  | .local _ .vmem, ⟨6, _⟩ => ⟨S8x128, .f32⟩
  | .local _ .vmem, ⟨7, _⟩ => ⟨S1x1, .f32⟩
  | _, _ => ⟨S65536x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v48 : BitVec 1 := Scalar.cmpi .eq arg1 c63_i32
  let v49 : BitVec 32 := Scalar.extui v48
  let c0_i32_18 : BitVec 32 := 0#32
  let v50 : BitVec 1 := Scalar.cmpi .ne v49 c0_i32_18
  v50

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1000x1000 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  bcast_S_S1000x1000 : S_.BroadcastsInDim S1000x1000 (![] : Fin 0 → Fin S1000x1000.rank)
  bitsLt_bf16_f32 : FTy.bits .bf16 < FTy.bits .f32
  shapeCasts_S65536_S65536x1 : S65536.ShapeCasts S65536x1
  inb_S512x1000_S512x1000_0_0 : ∀ a, (![0, 0] : Fin 2 → Nat) a + S512x1000.size a ≤ S512x1000.size a
  h_S512x1000 : 0 < S512x1000.numel
  reduces_S512x1000_S512 : S512x1000.Reduces [1] S512
  shapeCasts_S512_S512x1 : S512.ShapeCasts S512x1
  broadcasts_S512x1_S512x1000 : S512x1.Broadcasts S512x1000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S512x1000_d1_w32 : S512x1000.Iotas .tc 32 [1]
  natLt_1_32 : 1 < 32
  inb_S1000x1000_S1000x1000_0_0 : ∀ a, (![0, 0] : Fin 2 → Nat) a + S1000x1000.size a ≤ S1000x1000.size a
  h_S1000x1000 : 0 < S1000x1000.numel
  shapeCasts_S1000x1000_S1000x1000 : S1000x1000.ShapeCasts S1000x1000
  reduces_S512x1_S1 : S512x1.Reduces [0] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  dot_S512x1000_S1000x1000_S512x1000_1_0_0_1_n_n_wf : DotDims.WF S512x1000 S1000x1000 S512x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1000.size a ≤ S65536x1000.size a
  hwx0_0 : ∀ i : grid0.Coords, EltTy.bits .f32 = 32 ∨ (Rect.block (s := S65536x1000) S512x1000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1000.size a ≤ S1000x1000.size a
  hwx0_1 : ∀ i : grid0.Coords, EltTy.bits .bf16 = 32 ∨ (Rect.block (s := S1000x1000) S1000x1000.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S65536x1.size a
  hwx0_2 : ∀ i : grid0.Coords, EltTy.bits .i32 = 32 ∨ (Rect.block (s := S65536x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S16x128.size a
  hwx0_3 : ∀ i : grid0.Coords, EltTy.bits .f32 = 32 ∨ (Rect.block (s := S16x128) S8x128.size (cc0_transform_3 i) (hinb0_3 i)).WholeWords (EltTy.packing .f32)

variable [Facts₀]

def dot_S512x1000_S1000x1000_S512x1000_1_0_0_1_n_n : DotDims S512x1000 S1000x1000 S512x1000 where
  lhsContracting := [1]
  rhsContracting := [0]
  lhsNonContracting := [0]
  rhsNonContracting := [1]
  lhsBatch := []
  rhsBatch := []
  wf := dot_S512x1000_S1000x1000_S512x1000_1_0_0_1_n_n_wf

abbrev win0_0 : Pipeline.Window sig grid0 :=
  Pipeline.Window.ofSpec (Memref.whole main_arg0) S512x1000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1000x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S65536x1000 : Shape := ⟨2, ![65536, 1000]⟩
abbrev S1000x1000 : Shape := ⟨2, ![1000, 1000]⟩
abbrev S65536 : Shape := ⟨1, ![65536]⟩
abbrev S_ : Shape := ⟨0, ![]⟩
abbrev S65536x1 : Shape := ⟨2, ![65536, 1]⟩
abbrev S65536x2 : Shape := ⟨2, ![65536, 2]⟩

abbrev nBuf : Space → Nat
  | .hbm => 90
  | .vmem => 0
  | .smem => 0
  | _ => 0

abbrev bufTy : (tb : Table) → Fin (tcTables nBuf tb) → BufTy
  | .hbm, ⟨0, _⟩ => ⟨S65536x1000, .f32⟩
  | .hbm, ⟨1, _⟩ => ⟨S1000x1000, .f32⟩
  | .hbm, ⟨2, _⟩ => ⟨S65536, .i32⟩
  | .hbm, ⟨3, _⟩ => ⟨S1000x1000, .f32⟩
  | .hbm, ⟨4, _⟩ => ⟨S65536, .i32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536x1, .f32⟩
  | .hbm, ⟨11, _⟩ => ⟨S65536x1000, .f32⟩
  | .hbm, ⟨12, _⟩ => ⟨S65536x1000, .f32⟩
  | .hbm, ⟨13, _⟩ => ⟨S65536x1000, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x1, .f32⟩
  | .hbm, ⟨18, _⟩ => ⟨S65536x1000, .f32⟩
  | .hbm, ⟨19, _⟩ => ⟨S65536x1000, .f32⟩
  | .hbm, ⟨20, _⟩ => ⟨S65536x1000, .f32⟩
  | .hbm, ⟨21, _⟩ => ⟨S_, .f32⟩
  | .hbm, ⟨22, _⟩ => ⟨S1000x1000, .f32⟩
  | .hbm, ⟨23, _⟩ => ⟨S1000x1000, .f32⟩
  | .hbm, ⟨24, _⟩ => ⟨S1000x1000, .f32⟩
  | .hbm, ⟨25, _⟩ => ⟨S65536x1000, .f32⟩
  | .hbm, ⟨26, _⟩ => ⟨S_, .i32⟩
  | .hbm, ⟨27, _⟩ => ⟨S65536, .i32⟩
  | .hbm, ⟨28, _⟩ => ⟨S65536, .i1⟩
  | .hbm, ⟨29, _⟩ => ⟨S_, .i32⟩
  | .hbm, ⟨30, _⟩ => ⟨S65536, .i32⟩
  | .hbm, ⟨31, _⟩ => ⟨S65536, .i32⟩
  | .hbm, ⟨32, _⟩ => ⟨S65536, .i32⟩
  | .hbm, ⟨33, _⟩ => ⟨S_, .i32⟩
  | .hbm, ⟨34, _⟩ => ⟨S65536, .i32⟩
  | .hbm, ⟨35, _⟩ => ⟨S65536, .i1⟩
  | .hbm, ⟨36, _⟩ => ⟨S_, .i32⟩
  | .hbm, ⟨37, _⟩ => ⟨S65536, .i32⟩
  | .hbm, ⟨38, _⟩ => ⟨S65536, .i32⟩
  | .hbm, ⟨39, _⟩ => ⟨S65536, .i32⟩
  | .hbm, ⟨40, _⟩ => ⟨S65536x1, .i32⟩
  | .hbm, ⟨41, _⟩ => ⟨S65536x1, .i32⟩
  | .hbm, ⟨42, _⟩ => ⟨S65536x2, .i32⟩
  | .hbm, ⟨43, _⟩ => ⟨S65536, .f32⟩
  | .hbm, ⟨44, _⟩ => ⟨S_, .i32⟩
  | .hbm, ⟨45, _⟩ => ⟨S65536, .i32⟩
  | .hbm, ⟨46, _⟩ => ⟨S65536, .i1⟩
  | .hbm, ⟨47, _⟩ => ⟨S_, .i32⟩
  | .hbm, ⟨48, _⟩ => ⟨S65536, .i32⟩
  | .hbm, ⟨49, _⟩ => ⟨S65536, .i32⟩
  | .hbm, ⟨50, _⟩ => ⟨S65536, .i32⟩
  | .hbm, ⟨51, _⟩ => ⟨S_, .i32⟩
  | .hbm, ⟨52, _⟩ => ⟨S65536, .i32⟩
  | .hbm, ⟨53, _⟩ => ⟨S65536, .i1⟩
  | .hbm, ⟨54, _⟩ => ⟨S_, .i32⟩
  | .hbm, ⟨55, _⟩ => ⟨S65536, .i32⟩
  | .hbm, ⟨56, _⟩ => ⟨S65536, .i32⟩
  | .hbm, ⟨57, _⟩ => ⟨S65536, .i32⟩
  | .hbm, ⟨58, _⟩ => ⟨S65536x1, .i32⟩
  | .hbm, ⟨59, _⟩ => ⟨S65536x1, .i32⟩
  | .hbm, ⟨60, _⟩ => ⟨S65536x2, .i32⟩
  | .hbm, ⟨61, _⟩ => ⟨S65536, .f32⟩
  | .hbm, ⟨62, _⟩ => ⟨S_, .f32⟩
  | .hbm, ⟨63, _⟩ => ⟨S65536, .f32⟩
  | .hbm, ⟨64, _⟩ => ⟨S65536, .f32⟩
  | .hbm, ⟨65, _⟩ => ⟨S65536, .f32⟩
  | .hbm, ⟨66, _⟩ => ⟨S_, .i32⟩
  | .hbm, ⟨67, _⟩ => ⟨S65536, .i32⟩
  | .hbm, ⟨68, _⟩ => ⟨S65536, .i1⟩
  | .hbm, ⟨69, _⟩ => ⟨S_, .i32⟩
  | .hbm, ⟨70, _⟩ => ⟨S65536, .i32⟩
  | .hbm, ⟨71, _⟩ => ⟨S65536, .i32⟩
  | .hbm, ⟨72, _⟩ => ⟨S65536, .i32⟩
  | .hbm, ⟨73, _⟩ => ⟨S_, .i32⟩
  | .hbm, ⟨74, _⟩ => ⟨S65536, .i32⟩
  | .hbm, ⟨75, _⟩ => ⟨S65536, .i1⟩
  | .hbm, ⟨76, _⟩ => ⟨S_, .i32⟩
  | .hbm, ⟨77, _⟩ => ⟨S65536, .i32⟩
  | .hbm, ⟨78, _⟩ => ⟨S65536, .i32⟩
  | .hbm, ⟨79, _⟩ => ⟨S65536, .i32⟩
  | .hbm, ⟨80, _⟩ => ⟨S65536x1, .i32⟩
  | .hbm, ⟨81, _⟩ => ⟨S65536x1, .i32⟩
  | .hbm, ⟨82, _⟩ => ⟨S65536x2, .i32⟩
  | .hbm, ⟨83, _⟩ => ⟨S65536, .f32⟩
  | .hbm, ⟨84, _⟩ => ⟨S65536, .f32⟩
  | .hbm, ⟨85, _⟩ => ⟨S65536, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | _, _ => ⟨S65536x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_call0_cst_0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_cst_1 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_v1 : Ref sig .tc := ⟨.hbm, 19, rfl⟩
abbrev main_v2 : Ref sig .tc := ⟨.hbm, 20, rfl⟩
abbrev main_cst : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_c : Ref sig .tc := ⟨.hbm, 26, rfl⟩
abbrev main_v7 : Ref sig .tc := ⟨.hbm, 27, rfl⟩
abbrev main_v8 : Ref sig .tc := ⟨.hbm, 28, rfl⟩
abbrev main_c_0 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c_3 : Ref sig .tc := ⟨.hbm, 44, rfl⟩
abbrev main_v21 : Ref sig .tc := ⟨.hbm, 45, rfl⟩
abbrev main_v22 : Ref sig .tc := ⟨.hbm, 46, rfl⟩
abbrev main_c_4 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_c_8 : Ref sig .tc := ⟨.hbm, 66, rfl⟩
abbrev main_v38 : Ref sig .tc := ⟨.hbm, 67, rfl⟩
abbrev main_v39 : Ref sig .tc := ⟨.hbm, 68, rfl⟩
abbrev main_c_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_c_11 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_12 : Ref sig .tc := ⟨.hbm, 86, rfl⟩
abbrev main_v54 : Ref sig .tc := ⟨.hbm, 87, rfl⟩
abbrev main_cst_13 : Ref sig .tc := ⟨.hbm, 88, rfl⟩
abbrev main_v55 : Ref sig .tc := ⟨.hbm, 89, rfl⟩

abbrev nD : Nat := 1
abbrev τ : Topo := Topo.v7x

variable {F : FTy → Type} [FloatOps F]

class Facts₀ : Prop where
  reducesTo_S65536x1000_S65536_d1 : S65536x1000.ReducesTo [1] S65536
  h_S_ : 0 < S_.numel
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x1000_0_1 : S65536x1.BroadcastsInDim S65536x1000 (![0, 1] : Fin 2 → Fin S65536x1000.rank)
  bcast_S_S1000x1000 : S_.BroadcastsInDim S1000x1000 (![] : Fin 0 → Fin S1000x1000.rank)
  concatenates_S65536x1_S65536x1_S65536x2_d1 : Shape.Concatenates [S65536x1, S65536x1] S65536x2 1
  reducesTo_S65536_S_d0 : S65536.ReducesTo [0] S_
  dot_S65536x1000_S1000x1000_S65536x1000_1_0_0_1_n_n_wf : DotDims.WF S65536x1000 S1000x1000 S65536x1000 [1] [0] [0] [1] [] []
  gather_S65536x1000_S65536x2_S65536_n_01_n_n_01_1_11_wf : GatherDims.WF S65536x1000 S65536x2 S65536 [] [0, 1] [] [0, 1] [] 1 ![1, 1]

variable [Facts₀]

def dot_S65536x1000_S1000x1000_S65536x1000_1_0_0_1_n_n : DotDims S65536x1000 S1000x1000 S65536x1000 where
  lhsContracting := [1]
  rhsContracting := [0]
  lhsNonContracting := [0]
  rhsNonContracting := [1]
  lhsBatch := []
  rhsBatch := []
  wf := dot_S65536x1000_S1000x1000_S65536x1000_1_0_0_1_n_n_wf
def gather_S65536x1000_S65536x2_S65536_n_01_n_n_01_1_11 : GatherDims S65536x1000 S65536x2 S65536 where
  offsetDims := []
  collapsedSliceDims := [0, 1]
  operandBatchingDims := []
  startIndicesBatchingDims := []
  startIndexMap := [0, 1]
  indexVectorDim := 1
  sliceSizes := ![1, 1]
  wf := gather_S65536x1000_S65536x2_S65536_n_01_n_n_01_1_11_wf

class Facts : Prop extends Facts₀ where

variable [Facts]
-- ==== Proof.LibTRef.lean ====
/-
  Typed references of a module-local function: moving a value to the buffer's own type and back is the identity.

  An operation of an outlined function is stated over references that carry the type of the tensor they hold; its
  function is moved to the buffer's own contents type along the equation of the two types (`toBuf`) and each operand
  is moved back (`ofBuf`). Reading a line of such operations leaves a pair `ofBuf (toBuf v)` around every
  intermediate value; the pair is the identity, whatever the reference.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, h1, h2⟩ := x
  rfl

/-- Back and to the buffer's type. -/
theorem toBuf_ofBuf (x : TRef sig T) (v : x.ref.ty.Contents Val) : x.toBuf (x.ofBuf v) = v := by
  obtain ⟨r, rfl, h1, h2⟩ := x
  rfl

end Idealize.ShloMosaic.StableHlo.TRef
-- ==== Proof.PreFacts.lean ====
/-
  What the precondition says of the inputs: every logit is a real number, and every label is the word of a
  class number below 1000.

  The precondition is a conjunction of four `all`s: three finiteness tests `|x| < +inf` (of the logits, the
  correction and `T`) and the range test `0 ≤ label ∧ label < 1000` on the labels read as signed words. An
  `all` that is one has a one at every index; an extended real whose absolute value is below `+inf` is neither
  infinity; a signed word between 0 and 999 is the word of that number.
-/
import proofs.«416013_j39883066311038_2_alg».proof.Proof.Gen.Pre_finite_inputs
import Idealize.ShloMosaic.Lib.ReduceAll
import Idealize.ShloMosaic.Lib.ValueIdx
import Idealize.ShloMosaic.PureOps.Ideal.Laws

noncomputable section

namespace Cert.Pre_finite_inputs.Domain

open Idealize.ShloMosaic Idealize.ShloMosaic.ValueIdx Cert.Pre_finite_inputs Cert.Pre_finite_inputs.Gen

instance : Subsingleton S_.Idx := ⟨fun a b => funext fun d => d.elim0⟩

/-- An extended real whose absolute value is below the word of `+inf` is a real number. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  have hlt : max x (-x) < ⊤ := by
    unfold Ideal.cmp at h
    by_contra hn
    simp [hn] at h
  induction x using EReal.rec with
  | bot => simp at hlt
  | coe r => exact ⟨r, rfl⟩
  | top => simp at hlt

/-- A signed word between 0 and 999 is the word of that number. -/
theorem label_of_range (b : BitVec 32) (h0 : (0#32 : BitVec 32).toInt ≤ b.toInt) (h1 : b.toInt < (1000#32 : BitVec 32).toInt) :
    ∃ k : Fin 1000, b = BitVec.ofNat 32 k.val := by
  have e0 : (0#32 : BitVec 32).toInt = 0 := by decide
  have e1 : (1000#32 : BitVec 32).toInt = 1000 := by decide
  rw [e0] at h0; rw [e1] at h1
  have hc := BitVec.toInt_eq_toNat_cond b
  have hlt := b.isLt
  have hk : b.toNat < 1000 := by
    split at hc <;> omega
  exact ⟨⟨b.toNat, hk⟩, BitVec.eq_of_toNat_eq (by rw [BitVec.toNat_ofNat]; exact (Nat.mod_eq_of_lt hlt).symm)⟩

/-- From the precondition: the logits are real and the labels are class numbers. -/
theorem of_pre (a0 : FVec Ideal S65536x1000 .f32) (a1 a3 : FVec Ideal S1000x1000 .f32) (a2 : IVec S65536 32)
    (h : fn (F := Ideal) a0 a1 a2 a3 = fun _ => 1#1) :
    (∀ i, ∃ r : ℝ, a0 i = (r : EReal)) ∧ (∀ p : S65536.Idx, ∃ k : Fin 1000, a2 p = BitVec.ofNat 32 k.val) := by
  have h0 := congrFun h ix0
  unfold fn fn_part1 at h0
  dsimp only at h0
  obtain ⟨h13, h19⟩ := IntOp.andi_eq_one.1 h0
  obtain ⟨h8, _⟩ := IntOp.andi_eq_one.1 h13
  obtain ⟨h3, _⟩ := IntOp.andi_eq_one.1 h8
  refine ⟨fun i => ?_, fun p => ?_⟩
  · exact real_of_abs_lt (a0 i) (Host.reduce_andi_all _ _ _ _ ix0 h3 i)
  · obtain ⟨hge, hlt⟩ := IntOp.andi_eq_one.1 (Host.reduce_andi_all _ _ _ _ ix0 h19 p)
    exact label_of_range (a2 p) (IntOp.cmpi_sge.1 hge) (IntOp.cmpi_slt.1 hlt)

end Cert.Pre_finite_inputs.Domain

end
-- ==== Proof.RowLoss.lean ====
/-
  The mathematics of one row of the reweighted cross-entropy, on the extended reals.

  A row of logits `x`, shifted by a real `M`, gives `s k = x k - M`, the positive sum `S = Σ exp (s k)` and its
  logarithm `L`. One program forms the probabilities as `exp (s k) * (1 / S)`, the cross-entropy as `L - s t` and
  the label's probability as `exp (0 - (L - s t))`; the other forms the log-probabilities `s k - L`, the
  probabilities as their exponentials, the label's probability as entry `t` of those and the cross-entropy as
  `-(s t - L)`. For real `x` and `M` every one of these is a real number, `S > 0`, and the two spellings agree:
  `exp (a - log S) = exp a * (1 / S)`. The reweighting factor `p t / ((p · W) t + ε)` and the product with the
  cross-entropy are then the same function of equal arguments, whatever the weights `W` and `ε` are.

  Also here: a sum against a one-hot row picks one entry (no finiteness needed: `x * 0 = 0` on the extended
  reals), and a sum over `range (B * T)` is the sum over `B` blocks of `T`.
-/
import Idealize.ShloMosaic.PureOps.Ideal
import Idealize.ShloMosaic.PureOps.Ideal.Laws

noncomputable section

namespace Cert.Reweighted

open Idealize.ShloMosaic

variable {ι : Type} [Fintype ι] [DecidableEq ι]

/-- The coercion of a finite real sum is the sum of the coercions. -/
theorem coe_sum (f : ι → ℝ) : ((∑ k, f k : ℝ) : EReal) = ∑ k, (f k : EReal) := by
  classical
  refine Finset.induction_on (Finset.univ : Finset ι) (by simp) ?_
  intro a s ha ih
  rw [Finset.sum_insert ha, Finset.sum_insert ha, EReal.coe_add, ih]

/-- The sum of the shifted exponentials of a real row. -/
def expSum (x : ι → ℝ) (M : ℝ) : ℝ := ∑ k, Real.exp (x k - M)

theorem expSum_pos (x : ι → ℝ) (M : ℝ) (t : ι) : 0 < expSum x M :=
  Finset.sum_pos (fun k _ => Real.exp_pos _) ⟨t, Finset.mem_univ t⟩

/-- The maximum of a row from a floor `b`. -/
def rowMax (b : EReal) (x : ι → EReal) : EReal := (Finset.univ : Finset ι).fold max b x

/-- The maximum of a nonempty real row from the floor `⊥` is a real number. -/
theorem rowMax_real (xr : ι → ℝ) (t : ι) : ∃ Mr : ℝ, rowMax ⊥ (fun k => (xr k : EReal)) = (Mr : EReal) := by
  have h1 : rowMax ⊥ (fun k => (xr k : EReal)) ≠ ⊤ :=
    ne_of_lt ((Finset.fold_max_lt ⊤).2 ⟨bot_lt_top, fun k _ => EReal.coe_lt_top _⟩)
  have h2 : rowMax ⊥ (fun k => (xr k : EReal)) ≠ ⊥ :=
    ne_of_gt ((Finset.lt_fold_max ⊥).2 (Or.inr ⟨t, Finset.mem_univ t, EReal.bot_lt_coe _⟩))
  exact ⟨(rowMax ⊥ (fun k => (xr k : EReal))).toReal, (EReal.coe_toReal h1 h2).symm⟩

/-- One row as the kernel spells it: probabilities `exp s * (1 / S)`, cross-entropy `L - s t`, the label's
    probability `exp (0 - ce)`, the weighted probability a plain sum. -/
def kernelRow (x : ι → EReal) (M : EReal) (t : ι) (W : ι → ι → EReal) (eps : EReal) : EReal :=
  Ideal.div (Ideal.exp (0 - (Ideal.log (∑ k, Ideal.exp (x k - M)) - (x t - M))))
      ((∑ k, (Ideal.exp (x k - M) * Ideal.div 1 (∑ k, Ideal.exp (x k - M))) * W k t) + eps)
    * (Ideal.log (∑ k, Ideal.exp (x k - M)) - (x t - M))

/-- One row as the reference spells it: log-probabilities `s - L`, probabilities their exponentials, the
    cross-entropy minus the label's log-probability. -/
def referenceRow (x : ι → EReal) (M : EReal) (t : ι) (W : ι → ι → EReal) (eps : EReal) : EReal :=
  Ideal.div (Ideal.exp ((x t - M) - Ideal.log (∑ k, Ideal.exp (x k - M))))
      ((∑ k, Ideal.exp ((x k - M) - Ideal.log (∑ k, Ideal.exp (x k - M))) * W k t) + eps)
    * (-((x t - M) - Ideal.log (∑ k, Ideal.exp (x k - M))))

/-- For a real row and a real shift the two spellings are one extended real. -/
theorem kernelRow_eq_referenceRow (xr : ι → ℝ) (Mr : ℝ) (t : ι) (W : ι → ι → EReal) (eps : EReal) :
    kernelRow (fun k => (xr k : EReal)) (Mr : EReal) t W eps
      = referenceRow (fun k => (xr k : EReal)) (Mr : EReal) t W eps := by
  have hpos := expSum_pos xr Mr t
  have hS : ∑ k, Ideal.exp ((xr k : EReal) - (Mr : EReal)) = ((expSum xr Mr : ℝ) : EReal) := by
    rw [expSum, coe_sum]
    refine Finset.sum_congr rfl fun k _ => ?_
    rw [← EReal.coe_sub, Ideal.exp_coe]
  have hL : Ideal.log ((expSum xr Mr : ℝ) : EReal) = ((Real.log (expSum xr Mr) : ℝ) : EReal) := by
    rw [Ideal.log_coe, if_neg (not_le.2 hpos)]
  have hp : ∀ k, Ideal.exp ((xr k : EReal) - (Mr : EReal)) * Ideal.div 1 ((expSum xr Mr : ℝ) : EReal)
      = Ideal.exp (((xr k : EReal) - (Mr : EReal)) - ((Real.log (expSum xr Mr) : ℝ) : EReal)) := by
    intro k
    rw [Ideal.div_coe hpos.ne', one_mul, ← EReal.coe_sub, ← EReal.coe_sub, Ideal.exp_coe, Ideal.exp_coe,
      ← EReal.coe_mul]
    congr 1
    rw [Real.exp_sub (xr k - Mr) (Real.log (expSum xr Mr)), Real.exp_log hpos]
    ring
  have hce : ((Real.log (expSum xr Mr) : ℝ) : EReal) - ((xr t : EReal) - (Mr : EReal))
      = -(((xr t : EReal) - (Mr : EReal)) - ((Real.log (expSum xr Mr) : ℝ) : EReal)) := by
    rw [← EReal.coe_sub, ← EReal.coe_sub, ← EReal.coe_sub, ← EReal.coe_neg]
    congr 1; ring
  have hp1 : Ideal.exp (0 - (((Real.log (expSum xr Mr) : ℝ) : EReal) - ((xr t : EReal) - (Mr : EReal))))
      = Ideal.exp (((xr t : EReal) - (Mr : EReal)) - ((Real.log (expSum xr Mr) : ℝ) : EReal)) := by
    rw [hce, zero_sub, neg_neg]
  unfold kernelRow referenceRow
  simp only [hS, hL, hp, hp1]
  rw [hce]

/-- The word of `-inf` is the bottom of the extended reals. -/
theorem ofBits_neg_inf : Ideal.ofBits .f32 0xFF800000#32 = ⊥ := by simp [Ideal.ofBits, Ideal.ieee]

/-- With the row's own maximum (taken from the word of `-inf`) as the shift, the two spellings agree on a real row. -/
theorem kernelRow_eq_referenceRow_max (xr : ι → ℝ) (t : ι) (W : ι → ι → EReal) (eps : EReal) :
    kernelRow (fun k => (xr k : EReal)) (rowMax (Ideal.ofBits .f32 0xFF800000#32) (fun k => (xr k : EReal))) t W eps
      = referenceRow (fun k => (xr k : EReal)) (rowMax (Ideal.ofBits .f32 0xFF800000#32) (fun k => (xr k : EReal))) t W eps := by
  rw [ofBits_neg_inf]
  obtain ⟨Mr, hM⟩ := rowMax_real xr t
  rw [hM]
  exact kernelRow_eq_referenceRow xr Mr t W eps

/-- A sum against a one-hot row is the entry at the hot position. -/
theorem sum_mul_onehot (f g : ι → EReal) (t : ι) (hg : ∀ k, g k = if k = t then 1 else 0) :
    ∑ k, f k * g k = f t := by
  rw [Finset.sum_eq_single t]
  · rw [hg t, if_pos rfl, mul_one]
  · intro k _ hk; rw [hg k, if_neg hk, mul_zero]
  · intro h; exact absurd (Finset.mem_univ t) h

/-- A sum over `range (B * T)` as `B` blocks of `T` consecutive terms. -/
theorem sum_range_blocks {A : Type} [AddCommMonoid A] (f : ℕ → A) (B T : ℕ) :
    ∑ b ∈ Finset.range (B * T), f b = ∑ n ∈ Finset.range B, ∑ r ∈ Finset.range T, f (n * T + r) := by
  induction B with
  | zero => simp
  | succ n ih => rw [Nat.succ_mul, Finset.sum_range_add, ih, Finset.sum_range_succ]

/-- A running sum that restarts from zero at every multiple of `P`: `i` steps after the restart at `P * q` it
    holds the `i + 1` terms since. -/
theorem restart_sum {A : Type} [AddCommMonoid A] (P N : ℕ) (f g : ℕ → A)
    (hg : ∀ n, n < N → g n = (if n % P = 0 then 0 else g (n - 1)) + f n) (q i : ℕ) (hi : i < P)
    (hN : P * q + i < N) : g (P * q + i) = ∑ j ∈ Finset.range (i + 1), f (P * q + j) := by
  induction i with
  | zero =>
    rw [hg _ hN, if_pos (by rw [Nat.add_zero, Nat.mul_mod_right]), zero_add, Finset.sum_range_one]
  | succ i ih =>
    have hne : ¬(P * q + (i + 1)) % P = 0 := by
      rw [Nat.mul_add_mod, Nat.mod_eq_of_lt hi]; exact Nat.succ_ne_zero i
    have e : P * q + (i + 1) - 1 = P * q + i := by omega
    rw [hg _ hN, if_neg hne, e, Finset.sum_range_succ, ← ih (Nat.lt_of_succ_lt hi) (by omega)]

/-- Two halves of 64 tiles of 512 rows each: the tiles' sums, added half by half, are the sum over all 65536 rows. -/
theorem halves_blocks {A : Type} [AddCommMonoid A] (f part : ℕ → A)
    (hpart : ∀ n, n < 128 → part n = ∑ r ∈ Finset.range 512, f (n * 512 + r)) :
    (∑ j ∈ Finset.range 64, part (64 * 0 + j)) + (∑ j ∈ Finset.range 64, part (64 * 1 + j))
      = ∑ g ∈ Finset.range 65536, f g := by
  rw [show (65536 : ℕ) = 128 * 512 from rfl, sum_range_blocks, show (128 : ℕ) = 64 + 64 from rfl, Finset.sum_range_add]
  congr 1
  · refine Finset.sum_congr rfl fun j hj => ?_
    have hj' := Finset.mem_range.1 hj
    rw [Nat.mul_zero, Nat.zero_add, hpart j (by omega)]
  · refine Finset.sum_congr rfl fun j hj => ?_
    have hj' := Finset.mem_range.1 hj
    rw [Nat.mul_one, hpart (64 + j) (by omega)]

end Cert.Reweighted

end
-- ==== Proof.KernelValue.lean ====
/-
  What the kernel's run leaves behind, read as values.

  The body keeps one number in a scratch cell across the grid's second axis. At the first tile of a core's half
  it stores zero, reads it back and adds the tile's partial sum; at every later tile it adds the tile's partial
  sum to what the tile before left; at the last tile it also spreads the cell over the core's 8 by 128 output
  block. So after tile `i` of core `c` the cell holds zero plus the partial sums of tiles `0 … i` of that core,
  added in order, and the output array's block `c` holds the cell's value after tile 63.
-/
import proofs.«416013_j39883066311038_2_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx
import Idealize.ShloMosaic.PureOps.Ideal.Laws
import proofs.«416013_j39883066311038_2_alg».proof.Proof.RowLoss

noncomputable section

open Idealize.ShloMosaic Idealize.ShloMosaic.TcCoe Idealize.SL.Sem
open Idealize.ShloMosaic.Pipeline (Dat)

namespace Cert.KernelIdeal.Acc

open Cert.KernelIdeal Cert.KernelIdeal.Gen

variable {F : FTy → Type} [FloatOps F]

theorem hz : (![0, 0] : Fin 2 → Nat) = fun _ => 0 := funext fun a => by fin_cases a <;> rfl

/-! ## The three cases' pieces as values -/

/-- First tile of a half: the cell ends at the stored zero plus the tile's partial sum. -/
theorem scratch_A (c : Dev nD) (i : grid0.Coords) (arg2 : Memref sig .tc .vmem S512x1000 .f32) (harg2 : arg2.IsWhole)
    (arg3 : Memref sig .tc .vmem S1000x1000 .bf16) (harg3 : arg3.IsWhole) (arg4 : Memref sig .tc .vmem S512x1 .i32) (harg4 : arg4.IsWhole)
    (arg5 : Memref sig .tc .vmem S8x128 .f32) (harg5 : arg5.IsWhole) (arg6 : Memref sig .tc .vmem S1x1 .f32) (harg6 : arg6.IsWhole)
    (hc0 : cond0_0 i) (hc1 : ¬cond0_1 i)
    (x0 : Vec F S512x1000 .f32) (x1 : Vec F S1000x1000 .bf16) (x2 : Vec F S512x1 .i32) :
    sout0_A_0 c i arg2 harg2 arg3 harg3 arg4 harg4 arg5 harg5 arg6 harg6 hc0 hc1 x0 x1 x2
      = addf (k0_pay1 (F := F)) (k0_pay4 x0 x2 x1) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1x1) hz, View.readCov_unit_zero (S := S1x1) _ hz]
  unfold k0_pay2
  simp only [View.readAt_eq_ld, harg2.read_unread, harg3.read_unread, harg4.read_unread, harg6.read_unread,
    View.ld_unit_zero (S := S512x1000) hz, View.ld_unit_zero (S := S512x1) hz, View.ld_unit_zero (S := S1000x1000) hz,
    View.ld_unit_zero (S := S1x1) hz, shapeCast_self]

/-- A middle tile: the cell ends at what the tile before left plus the tile's partial sum. -/
theorem scratch_B (c : Dev nD) (i : grid0.Coords) (arg2 : Memref sig .tc .vmem S512x1000 .f32) (harg2 : arg2.IsWhole)
    (arg3 : Memref sig .tc .vmem S1000x1000 .bf16) (harg3 : arg3.IsWhole) (arg4 : Memref sig .tc .vmem S512x1 .i32) (harg4 : arg4.IsWhole)
    (arg5 : Memref sig .tc .vmem S8x128 .f32) (harg5 : arg5.IsWhole) (arg6 : Memref sig .tc .vmem S1x1 .f32) (harg6 : arg6.IsWhole)
    (hc0 : ¬cond0_0 i) (hc1 : ¬cond0_1 i)
    (x0 : Vec F S512x1000 .f32) (x1 : Vec F S1000x1000 .bf16) (x2 : Vec F S512x1 .i32) (xs0 : Vec F S1x1 .f32) :
    sout0_B_0 c i arg2 harg2 arg3 harg3 arg4 harg4 arg5 harg5 arg6 harg6 hc0 hc1 x0 x1 x2 xs0
      = addf xs0 (k0_pay4 x0 x2 x1) := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  unfold k0_pay2
  simp only [View.readAt_eq_ld, harg2.read_unread, harg3.read_unread, harg4.read_unread, harg6.read_unread,
    View.ld_unit_zero (S := S512x1000) hz, View.ld_unit_zero (S := S512x1) hz, View.ld_unit_zero (S := S1000x1000) hz,
    View.ld_unit_zero (S := S1x1) hz, shapeCast_self]

/-- The last tile of a half: the cell likewise, -/
theorem scratch_C (c : Dev nD) (i : grid0.Coords) (arg2 : Memref sig .tc .vmem S512x1000 .f32) (harg2 : arg2.IsWhole)
    (arg3 : Memref sig .tc .vmem S1000x1000 .bf16) (harg3 : arg3.IsWhole) (arg4 : Memref sig .tc .vmem S512x1 .i32) (harg4 : arg4.IsWhole)
    (arg5 : Memref sig .tc .vmem S8x128 .f32) (harg5 : arg5.IsWhole) (arg6 : Memref sig .tc .vmem S1x1 .f32) (harg6 : arg6.IsWhole)
    (hc0 : ¬cond0_0 i) (hc1 : cond0_1 i)
    (x0 : Vec F S512x1000 .f32) (x1 : Vec F S1000x1000 .bf16) (x2 : Vec F S512x1 .i32) (xs0 : Vec F S1x1 .f32) :
    sout0_C_0 c i arg2 harg2 arg3 harg3 arg4 harg4 arg5 harg5 arg6 harg6 hc0 hc1 x0 x1 x2 xs0
      = addf xs0 (k0_pay4 x0 x2 x1) := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  unfold k0_pay2
  simp only [View.readAt_eq_ld, harg2.read_unread, harg3.read_unread, harg4.read_unread, harg6.read_unread,
    View.ld_unit_zero (S := S512x1000) hz, View.ld_unit_zero (S := S512x1) hz, View.ld_unit_zero (S := S1000x1000) hz,
    View.ld_unit_zero (S := S1x1) hz, shapeCast_self]

/-- and the output block is the cell's new value spread over 8 by 128. -/
theorem out_C (c : Dev nD) (i : grid0.Coords) (arg2 : Memref sig .tc .vmem S512x1000 .f32) (harg2 : arg2.IsWhole)
    (arg3 : Memref sig .tc .vmem S1000x1000 .bf16) (harg3 : arg3.IsWhole) (arg4 : Memref sig .tc .vmem S512x1 .i32) (harg4 : arg4.IsWhole)
    (arg5 : Memref sig .tc .vmem S8x128 .f32) (harg5 : arg5.IsWhole) (arg6 : Memref sig .tc .vmem S1x1 .f32) (harg6 : arg6.IsWhole)
    (hc0 : ¬cond0_0 i) (hc1 : cond0_1 i)
    (x0 : Vec F S512x1000 .f32) (x1 : Vec F S1000x1000 .bf16) (x2 : Vec F S512x1 .i32) (xs0 : Vec F S1x1 .f32) :
    out0_C_3 c i arg2 harg2 arg3 harg3 arg4 harg4 arg5 harg5 arg6 harg6 hc0 hc1 x0 x1 x2 xs0
      = broadcastTo S8x128 (addf xs0 (k0_pay4 x0 x2 x1)) broadcasts_S1x1_S8x128 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz, View.readCov_unit_zero (S := S1x1) _ hz]
  unfold k0_pay3 k0_pay2
  simp only [View.readAt_eq_ld, harg2.read_unread, harg3.read_unread, harg4.read_unread, harg6.read_unread,
    View.ld_unit_zero (S := S512x1000) hz, View.ld_unit_zero (S := S512x1) hz, View.ld_unit_zero (S := S1000x1000) hz,
    View.ld_unit_zero (S := S1x1) hz, shapeCast_self]

/-! ## The cell, point by point -/

section Points

variable (m : (ℓ : Loc nD τ sig) → Buf (Elt F) ℓ)

/-- The partial sum of the tile at point `t`: the body's payload of the three blocks the point reads. -/
abbrev part (c : Dev nD) (t : Fin cfg0.N) : Vec F S1x1 .f32 := k0_pay4 (iblk m c 0 t) (iblk m c 2 t) (iblk m c 1 t)

/-- What the point before `t` left in the cell. -/
abbrev before (c : Dev nD) (t : Fin cfg0.N) : Vec F S1x1 .f32 :=
  (outsAt0 m c (t.val - 1) (Nat.lt_of_le_of_lt (Nat.sub_le _ _) t.isLt)).2

/-- At the first tile of a half the cell ends at zero plus the tile's partial sum. -/
theorem cell_first (c : Dev nD) (t : Fin cfg0.N) (h0 : t.val % 64 = 0) :
    (outsAt0 m c t.val t.isLt).2 = addf (k0_pay1 (F := F)) (part m c t) := by
  have h1 : ¬t.val % 64 = 63 := by omega
  rw [outsAt0_A m c t h0 h1]
  dsimp only
  exact scratch_A c (grid0.coords t) (ms0_0 t) (hs0_0 t) (ms0_1 t) (hs0_1 t) (ms0_2 t) (hs0_2 t) (ms0_3 t) (hs0_3 t) scM0_0
    (Memref.isWhole_whole _) ((hcond0_0 t).mpr h0) (fun h => h1 ((hcond0_1 t).mp h))
    (iblk m c 0 t) (iblk m c 1 t) (iblk m c 2 t)

/-- At every other tile it ends at what the tile before left plus the tile's partial sum. -/
theorem cell_next (c : Dev nD) (t : Fin cfg0.N) (h0 : ¬t.val % 64 = 0) :
    (outsAt0 m c t.val t.isLt).2 = addf (before m c t) (part m c t) := by
  by_cases h1 : t.val % 64 = 63
  · rw [outsAt0_C m c t h0 h1]
    dsimp only
    exact scratch_C c (grid0.coords t) (ms0_0 t) (hs0_0 t) (ms0_1 t) (hs0_1 t) (ms0_2 t) (hs0_2 t) (ms0_3 t) (hs0_3 t) scM0_0
        (Memref.isWhole_whole _) (fun h => h0 ((hcond0_0 t).mp h)) ((hcond0_1 t).mpr h1)
        (iblk m c 0 t) (iblk m c 1 t) (iblk m c 2 t) (before m c t)
  · rw [outsAt0_B m c t h0 h1]
    dsimp only
    exact scratch_B c (grid0.coords t) (ms0_0 t) (hs0_0 t) (ms0_1 t) (hs0_1 t) (ms0_2 t) (hs0_2 t) (ms0_3 t) (hs0_3 t) scM0_0
        (Memref.isWhole_whole _) (fun h => h0 ((hcond0_0 t).mp h)) (fun h => h1 ((hcond0_1 t).mp h))
        (iblk m c 0 t) (iblk m c 1 t) (iblk m c 2 t) (before m c t)

/-- At the last tile of a half the output block is the cell's new value spread over 8 by 128. -/
theorem block_last (c : Dev nD) (t : Fin cfg0.N) (h1 : t.val % 64 = 63) :
    (outsAt0 m c t.val t.isLt).1 = broadcastTo S8x128 (addf (before m c t) (part m c t)) broadcasts_S1x1_S8x128 := by
  have h0 : ¬t.val % 64 = 0 := by omega
  rw [outsAt0_C m c t h0 h1]
  dsimp only
  exact out_C c (grid0.coords t) (ms0_0 t) (hs0_0 t) (ms0_1 t) (hs0_1 t) (ms0_2 t) (hs0_2 t) (ms0_3 t) (hs0_3 t) scM0_0
    (Memref.isWhole_whole _) (fun h => h0 ((hcond0_0 t).mp h)) ((hcond0_1 t).mpr h1)
    (iblk m c 0 t) (iblk m c 1 t) (iblk m c 2 t) (before m c t)

end Points

/-! ## At the ideal values: the cell is a sum of partial sums -/

section IdealValues

open Idealize.ShloMosaic.ValueIdx Cert.Reweighted

variable (m : (ℓ : Loc nD τ sig) → Buf (Elt Ideal) ℓ)

/-- The one entry of the cell after point `n` (zero past the grid). -/
def cellv (c : Dev nD) (n : ℕ) : EReal :=
  if h : n < cfg0.N then (outsAt0 m c n h).2 (ix2 (0 : Fin 1) (0 : Fin 1)) else 0

/-- The one entry of the partial sum of the tile at point `n` (zero past the grid). -/
def partv (c : Dev nD) (n : ℕ) : EReal :=
  if h : n < cfg0.N then part m c ⟨n, h⟩ (ix2 (0 : Fin 1) (0 : Fin 1)) else 0

/-- The reset stores the zero word. -/
theorem pay1_apply (i : S1x1.Idx) : k0_pay1 (F := Ideal) i = 0 := by
  unfold k0_pay1
  rw [shapeCast_self]
  exact Ideal.ofBits_zero_f32

/-- One step of the cell: restart at a multiple of 64, else carry, and add the point's partial sum. -/
theorem cellv_step (c : Dev nD) (n : ℕ) (hn : n < cfg0.N) :
    cellv m c n = (if n % 64 = 0 then 0 else cellv m c (n - 1)) + partv m c n := by
  unfold cellv partv
  rw [dif_pos hn, dif_pos hn]
  by_cases h0 : n % 64 = 0
  · rw [if_pos h0, cell_first m c ⟨n, hn⟩ h0, addf_apply, pay1_apply]
  · rw [if_neg h0, cell_next m c ⟨n, hn⟩ h0, addf_apply, dif_pos (Nat.lt_of_le_of_lt (Nat.sub_le _ _) hn)]

/-- After tile `i` of half `q` the cell holds the partial sums of that half's tiles `0 … i`. -/
theorem cellv_eq_sum (c : Dev nD) (q i : ℕ) (hi : i < 64) (hN : 64 * q + i < cfg0.N) :
    cellv m c (64 * q + i) = ∑ j ∈ Finset.range (i + 1), partv m c (64 * q + j) :=
  restart_sum 64 cfg0.N (partv m c) (cellv m c) (cellv_step m c) q i hi hN

/-! ## The output array and the result -/

/-- The output array after the run: rows `8 q … 8 q + 7` hold the cell after the last tile of half `q`. -/
def outArr (c : Dev nD) : S16x128.Idx → Elt Ideal .f32 := fun i => cellv m c (64 * ((i 0).val / 8) + 63)

/-- The output window's block index at point `t`: the half `t / 64`, column block 0. -/
theorem idx_out : ∀ t : Fin cfg0.N, win0_3.index t (0 : Fin 2) = t.val / 64 ∧ win0_3.index t (1 : Fin 2) = 0 :=
  (by decide +kernel : ∀ t : Fin grid0.N, win0_3.index t (0 : Fin 2) = t.val / 64 ∧ win0_3.index t (1 : Fin 2) = 0)

/-- What a flushing point writes back is its block of `outArr`. -/
theorem flushed_eq (c : Dev nD) (t : Fin cfg0.N) (hf : (cfg0.win 3).flush t = true) :
    (dats m 0 c).flushed 3 t = ((cfg0.win 3).blk t).view.read (Elt Ideal) (outArr m c) := by
  have h63 : t.val % 64 = 63 := (flush0_3 t).mp hf
  have h0 : ¬t.val % 64 = 0 := by omega
  show (cfg0.win 3).cut (grid0.coords t) ((dats m 0 c).after 3 t) = _
  rw [after0_3, block_last m c t h63]
  funext y
  show broadcastTo S8x128 (addf (before m c t) (part m c t)) broadcasts_S1x1_S8x128 y
    = outArr m c (((cfg0.win 3).blk t).view.emb y)
  rw [broadcastTo_apply _ broadcasts_S1x1_S8x128 y (ix2 (0 : Fin 1) (0 : Fin 1)) (fun a => by
    match a with
    | ⟨0, _⟩ => show (0 : ℕ) = if (1 : ℕ) = 1 then 0 else _; rw [if_pos rfl]
    | ⟨1, _⟩ => show (0 : ℕ) = if (1 : ℕ) = 1 then 0 else _; rw [if_pos rfl])]
  have hc : cellv m c t.val = (addf (before m c t) (part m c t)) (ix2 (0 : Fin 1) (0 : Fin 1)) := by
    unfold cellv; rw [dif_pos t.isLt, cell_next m c t h0]
  rw [← hc]
  unfold outArr
  congr 1
  show t.val = 64 * ((win0_3.index t (0 : Fin 2) * 8 + 1 * (y 0).val) / 8) + 63
  have e := (idx_out t).1
  have hy : (y 0).val < 8 := (y 0).isLt
  omega

/-- Every index of the output array is in the block of its half's last point. -/
theorem cover (c : Dev nD) (i : S16x128.Idx) :
    ∃ t : Fin cfg0.N, (cfg0.win 3).flush t = true ∧ i ∈ ((cfg0.win 3).blk t).view.set := by
  have hN : cfg0.N = 128 := N_0
  have hi0 : (i 0).val < 16 := (i 0).isLt
  have hi1 : (i 1).val < 128 := (i 1).isLt
  have hlt : 64 * ((i 0).val / 8) + 63 < cfg0.N := by omega
  refine ⟨⟨64 * ((i 0).val / 8) + 63, hlt⟩, (flush0_3 _).mpr (by show (64 * ((i 0).val / 8) + 63) % 64 = 63; omega), ?_⟩
  show i ∈ ((View.whole main_v5).slice (win0_3.rect ⟨64 * ((i 0).val / 8) + 63, hlt⟩)).set
  rw [View.set_slice_whole, Rect.mem_set_unit]
  have e := idx_out ⟨64 * ((i 0).val / 8) + 63, hlt⟩
  intro a
  match a with
  | ⟨0, _⟩ =>
    show win0_3.index ⟨64 * ((i 0).val / 8) + 63, hlt⟩ (0 : Fin 2) * 8 ≤ (i 0).val
      ∧ (i 0).val < win0_3.index ⟨64 * ((i 0).val / 8) + 63, hlt⟩ (0 : Fin 2) * 8 + 8
    rw [e.1]
    show (64 * ((i 0).val / 8) + 63) / 64 * 8 ≤ (i 0).val ∧ (i 0).val < (64 * ((i 0).val / 8) + 63) / 64 * 8 + 8
    omega
  | ⟨1, _⟩ =>
    show win0_3.index ⟨64 * ((i 0).val / 8) + 63, hlt⟩ (1 : Fin 2) * 128 ≤ (i 1).val
      ∧ (i 1).val < win0_3.index ⟨64 * ((i 0).val / 8) + 63, hlt⟩ (1 : Fin 2) * 128 + 128
    rw [e.2]
    omega

/-- So the output array ends holding `outArr`. -/
theorem final_out (c : Dev nD) : (dats m 0 c).arrAt 3 cfg0.N = outArr m c :=
  (dats m 0 c).arrAt_eq_of_cover 3 (outArr m c) (flushed_eq m c) (cover c)

/-- The program's result: the two halves' cells added and divided by the word of 65536. -/
theorem result_eq (c : Dev nD) :
    Pipeline.afterTail₀ cfgs (dats m) 0 (V0 m) [hostOps1] c main_v11
      = fun _ => Ideal.div (cellv m c 63 + cellv m c 127) (Ideal.ofBits .f32 0x47800000#32) := by
  unfold Pipeline.afterTail₀
  show StableHlo.after hostOps1 _ (Proc.devRef .tc main_v11) = _
  after_results
  have hA : Pipeline.withArrays (cfgs 0).spec c (V0 m c) (fun w => (dats m 0 c).arrAt w (cfgs 0).N)
      (Proc.devRef .tc main_v5) = outArr m c :=
    (Pipeline.withArrays_arr spec0 launch0.win.arr_inj c _ _ 3).trans (final_out m c)
  rw [hA]
  funext i
  have hpos : ∀ k : S1x1.Idx, (S1x1.rowMajor k).val = (S_.rowMajor i).val := fun k => by
    have h1 := lt_of_lt_of_eq (S1x1.rowMajor k).isLt (by decide : S1x1.numel = 1)
    have h2 := lt_of_lt_of_eq (S_.rowMajor i).isLt (by decide : S_.numel = 1)
    omega
  have e0 : shapeCast S_ (extractStridedSlice S1x1 ![0, 0] (outArr m c) slices_S16x128_S1x1_0_0) shapeCasts_S1x1_S_ i
      = cellv m c 63 := by
    rw [shapeCast_apply _ shapeCasts_S1x1_S_ i (ix2 (0 : Fin 1) (0 : Fin 1)) (hpos _),
      extractStridedSlice_apply ![0, 0] _ slices_S16x128_S1x1_0_0 (ix2 (0 : Fin 1) (0 : Fin 1))
        (ix2 (0 : Fin 16) (0 : Fin 128)) (fun a => by
          match a with
          | ⟨0, _⟩ => rfl
          | ⟨1, _⟩ => rfl)]
    rfl
  have e8 : shapeCast S_ (extractStridedSlice S1x1 ![8, 0] (outArr m c) slices_S16x128_S1x1_8_0) shapeCasts_S1x1_S_ i
      = cellv m c 127 := by
    rw [shapeCast_apply _ shapeCasts_S1x1_S_ i (ix2 (0 : Fin 1) (0 : Fin 1)) (hpos _),
      extractStridedSlice_apply ![8, 0] _ slices_S16x128_S1x1_8_0 (ix2 (0 : Fin 1) (0 : Fin 1))
        (ix2 (8 : Fin 16) (0 : Fin 128)) (fun a => by
          match a with
          | ⟨0, _⟩ => rfl
          | ⟨1, _⟩ => rfl)]
    rfl
  show Ideal.div
      (shapeCast S_ (extractStridedSlice S1x1 ![0, 0] (outArr m c) slices_S16x128_S1x1_0_0) shapeCasts_S1x1_S_ i
        + shapeCast S_ (extractStridedSlice S1x1 ![8, 0] (outArr m c) slices_S16x128_S1x1_8_0) shapeCasts_S1x1_S_ i)
      (Ideal.ofBits .f32 0x47800000#32) = _
  rw [e0, e8]

end IdealValues

end Cert.KernelIdeal.Acc

end
-- ==== Proof.LibColumn.lean ====
/-
  A vector kept as a column and spread along its rows: the two layout steps a row statistic (a row's maximum,
  a row's sum) goes through before it meets the `[a, b]` array it was taken from. A length-`a` vector cast to
  `[a, 1]` reads, at `(p, 0)`, entry `p`; an `[a, 1]` column broadcast to `[a, b]` reads, at `(p, s)`, the
  column's entry `(p, 0)`, whatever `s` is.
-/
import Idealize.ShloMosaic.Lib.Pipeline.Value
import Idealize.ShloMosaic.Lib.ValueIdx

noncomputable section

namespace Cert.Attn.Column

open Idealize.ShloMosaic Idealize.ShloMosaic.ValueIdx

variable {α : Type}

/-- A length-`a` vector cast to an `[a, 1]` column reads, at `(p, u)`, the vector at `p`: both sit at row-major
    position `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- An `[a, 1]` column broadcast to `[a, b]` reads, at `(p, s)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (s : Fin b) :
    broadcastTo ⟨2, ![a, b]⟩ v h (ix2 p s) = v (ix2 p (0 : Fin 1)) := by
  refine broadcastTo_apply v h (ix2 p s) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else s.val
    rw [if_pos rfl]

end Cert.Attn.Column

end
-- ==== Proof.LibMlp.lean ====
/-
  One dense stage of a graph network's per-node perceptron, as a function on the extended reals, index by index:
  a matrix product, a bias, and an evaluation-mode batch normalisation  (a - m) * rsqrt (v + eps) * g + b , optionally
  followed by a rectifier  max a 0 .  Written over PLAIN coordinates (`Fin`) so that a kernel's row block and the
  whole array are the same function of their rows, and read off the two spellings a program may give it: the
  vector dialect's (a matrix-unit product into a zero accumulator, row vectors broadcast down the rows) and the
  host's (a `dot_general`, vectors broadcast in two steps).
-/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Mlp

/-- The variance offset of the normalisation: the single-precision word nearest 1e-5, read as an extended real. -/
def eps : EReal := Ideal.ofBits .f32 0x3727C5AC#32
/-- The rectifier's floor: the zero word. -/
def zero : EReal := Ideal.ofBits .f32 0x00000000#32

/-- Evaluation-mode batch normalisation of one value. -/
def bn (a m v g b : EReal) : EReal := (a - m) * Ideal.rsqrt (v + eps) * g + b

/-- A dense stage: row `i 0` of `a` against column `i 1` of `W`, plus the bias, normalised. -/
def lin {N K H : ℕ} (a : (⟨2, ![N, K]⟩ : Shape).Idx → EReal) (W : (⟨2, ![K, H]⟩ : Shape).Idx → EReal)
    (b g be m v : Fin H → EReal) : (⟨2, ![N, H]⟩ : Shape).Idx → EReal := fun i =>
  bn ((∑ k : Fin K, a (ix2 (i 0) k) * W (ix2 k (i 1))) + b (i 1)) (m (i 1)) (v (i 1)) (g (i 1)) (be (i 1))

/-- A one-row matrix read as a vector of its entries. -/
def row {H : ℕ} (x : (⟨2, ![1, H]⟩ : Shape).Idx → EReal) : Fin H → EReal := fun h => x (ix2 0 h)
/-- A rank-one array read as a vector of its entries. -/
def vec {H : ℕ} (x : (⟨1, ![H]⟩ : Shape).Idx → EReal) : Fin H → EReal := fun h => x (ix1 h)

/-- A vector reshaped to one row and read back as a vector is the vector. -/
theorem row_shapeCast {H : ℕ} (y : (⟨1, ![H]⟩ : Shape).Idx → EReal) (h : (⟨1, ![H]⟩ : Shape).ShapeCasts ⟨2, ![1, H]⟩) :
    row (shapeCast (⟨2, ![1, H]⟩ : Shape) y h) = vec y := by
  funext q
  show shapeCast (⟨2, ![1, H]⟩ : Shape) y h (ix2 0 q) = y (ix1 q)
  exact shapeCast_apply y h (ix2 0 q) (ix1 q) (by
    rw [Shape.rowMajor_val_two, Shape.rowMajor_val_one]; show q.val = 0 * H + q.val; omega)

/-- The rectifier, entry by entry. -/
def relu {S : Shape} (a : S.Idx → EReal) : S.Idx → EReal := fun i => max (a i) zero

/-- A dense stage reads only the row it is asked for: two inputs that agree on a row give the same row. -/
theorem lin_row {N N' K H : ℕ} (a : (⟨2, ![N, K]⟩ : Shape).Idx → EReal) (a' : (⟨2, ![N', K]⟩ : Shape).Idx → EReal)
    (W : (⟨2, ![K, H]⟩ : Shape).Idx → EReal) (b g be m v : Fin H → EReal) (r : Fin N) (r' : Fin N') (j : Fin H)
    (h : ∀ k : Fin K, a (ix2 r k) = a' (ix2 r' k)) :
    lin a W b g be m v (ix2 r j) = lin a' W b g be m v (ix2 r' j) := by
  unfold lin
  have : (∑ k : Fin K, a (ix2 r k) * W (ix2 k j)) = ∑ k : Fin K, a' (ix2 r' k) * W (ix2 k j) :=
    Finset.sum_congr rfl fun k _ => by rw [h k]
  exact congrArg (fun s => bn (s + b j) (m j) (v j) (g j) (be j)) this

/-- Two dense stages with a rectifier between them: one layer's perceptron and its outer normalisation. -/
def layer {N K H D : ℕ} (z : (⟨2, ![N, K]⟩ : Shape).Idx → EReal) (W1 : (⟨2, ![K, H]⟩ : Shape).Idx → EReal)
    (b1 g1 be1 m1 v1 : Fin H → EReal) (W2 : (⟨2, ![H, D]⟩ : Shape).Idx → EReal) (b2 g2 be2 m2 v2 : Fin D → EReal) :
    (⟨2, ![N, D]⟩ : Shape).Idx → EReal :=
  lin (relu (lin z W1 b1 g1 be1 m1 v1)) W2 b2 g2 be2 m2 v2

/-- A layer reads only the row it is asked for. -/
theorem layer_row {N N' K H D : ℕ} (z : (⟨2, ![N, K]⟩ : Shape).Idx → EReal) (z' : (⟨2, ![N', K]⟩ : Shape).Idx → EReal)
    (W1 : (⟨2, ![K, H]⟩ : Shape).Idx → EReal) (b1 g1 be1 m1 v1 : Fin H → EReal)
    (W2 : (⟨2, ![H, D]⟩ : Shape).Idx → EReal) (b2 g2 be2 m2 v2 : Fin D → EReal) (r : Fin N) (r' : Fin N') (j : Fin D)
    (h : ∀ k : Fin K, z (ix2 r k) = z' (ix2 r' k)) :
    layer z W1 b1 g1 be1 m1 v1 W2 b2 g2 be2 m2 v2 (ix2 r j) = layer z' W1 b1 g1 be1 m1 v1 W2 b2 g2 be2 m2 v2 (ix2 r' j) :=
  lin_row _ _ W2 b2 g2 be2 m2 v2 r r' j fun k => by
    show max (lin z W1 b1 g1 be1 m1 v1 (ix2 r k)) zero = max (lin z' W1 b1 g1 be1 m1 v1 (ix2 r' k)) zero
    rw [lin_row z z' W1 b1 g1 be1 m1 v1 r r' k h]

/-! ## A plain product's contraction is a sum over the middle coordinate -/

/-- For the dimension numbers of an M×K by K×N product, the sum over the contraction index is the sum over `Fin K` of
    row entry times column entry. -/
theorem plain_sum {M K N : ℕ} (l : (⟨2, ![M, K]⟩ : Shape).Idx → EReal) (r : (⟨2, ![K, N]⟩ : Shape).Idx → EReal)
    (j : (⟨2, ![M, N]⟩ : Shape).Idx) :
    (∑ k : (DotDims.plain M K N).contr.Idx, l ((DotDims.plain M K N).lhsIdx j k) * r ((DotDims.plain M K N).rhsIdx j k))
      = ∑ k : Fin K, l (ix2 (j 0) k) * r (ix2 k (j 1)) := by
  refine (Equiv.sum_comp (contrEquiv1 (DotDims.plain M K N) K rfl rfl).symm _).symm.trans (Finset.sum_congr rfl fun k _ => ?_)
  have hl : (DotDims.plain M K N).lhsIdx j ((contrEquiv1 (DotDims.plain M K N) K rfl rfl).symm k) = ix2 (j 0) k := by
    funext a; apply Fin.ext
    match a with
    | ⟨0, _⟩ => rfl
    | ⟨1, _⟩ => exact contrEquiv1_symm_val (DotDims.plain M K N) K rfl rfl k
  have hr : (DotDims.plain M K N).rhsIdx j ((contrEquiv1 (DotDims.plain M K N) K rfl rfl).symm k) = ix2 k (j 1) := by
    funext a; apply Fin.ext
    match a with
    | ⟨0, _⟩ => exact contrEquiv1_symm_val (DotDims.plain M K N) K rfl rfl k
    | ⟨1, _⟩ => rfl
  exact congrArg₂ (fun x y => l x * r y) hl hr

/-! ## The two spellings of the rectifier -/

theorem vec_relu {S : Shape} (x : FVec Ideal S .f32) :
    maximumf x (broadcast S (Scalar.ofBits .f32 0x00000000#32)) = relu x := rfl

theorem host_relu {S : Shape} (h0 : (⟨0, ![]⟩ : Shape).BroadcastsInDim S ![]) (x : FVec Ideal S .f32) :
    maximumf x (broadcastInDim S ![] h0 (constant (⟨0, ![]⟩ : Shape) .f32 0x00000000#32)) = relu x := rfl

/-! ## The vector dialect's spelling of a dense stage -/

/-- A row vector broadcast down the rows, read at (p, q), is its entry q. -/
theorem bcast_row {N H : ℕ} (hb : (⟨2, ![1, H]⟩ : Shape).Broadcasts ⟨2, ![N, H]⟩) (x : (⟨2, ![1, H]⟩ : Shape).Idx → EReal)
    (p : Fin N) (q : Fin H) : broadcastTo (⟨2, ![N, H]⟩ : Shape) x hb (ix2 p q) = x (ix2 0 q) := by
  refine broadcastTo_apply x hb (ix2 p q) (ix2 0 q) fun a => ?_
  match a with
  | ⟨0, _⟩ => simp
  | ⟨1, _⟩ =>
    show q.val = if H = 1 then 0 else q.val
    split
    · rename_i h; have := q.isLt; omega
    · rfl

theorem vec_lin {N K H : ℕ} {φa φw : FTy} (d : DotDims ⟨2, ![N, K]⟩ ⟨2, ![K, H]⟩ ⟨2, ![N, H]⟩) (hd : d = DotDims.plain N K H)
    (hb : (⟨2, ![1, H]⟩ : Shape).Broadcasts ⟨2, ![N, H]⟩)
    (a : FVec Ideal ⟨2, ![N, K]⟩ φa) (W : FVec Ideal ⟨2, ![K, H]⟩ φw) (b g be m v : FVec Ideal ⟨2, ![1, H]⟩ .f32) :
    addf (mulf (mulf (subf (addf (matmul d none a W (constant ⟨2, ![N, H]⟩ .f32 0x00000000#32)) (broadcastTo ⟨2, ![N, H]⟩ b hb))
        (broadcastTo ⟨2, ![N, H]⟩ m hb))
        (broadcastTo ⟨2, ![N, H]⟩ (rsqrt (addf v (broadcast ⟨2, ![1, H]⟩ (Scalar.ofBits .f32 0x3727C5AC#32)))) hb))
        (broadcastTo ⟨2, ![N, H]⟩ g hb)) (broadcastTo ⟨2, ![N, H]⟩ be hb)
      = lin a W (row b) (row g) (row be) (row m) (row v) := by
  subst hd
  funext i
  obtain ⟨p, q, rfl⟩ : ∃ (p : Fin N) (q : Fin H), i = ix2 p q := ⟨i 0, i 1, eq_ix2 i⟩
  simp only [addf_apply, mulf_apply, subf_apply]
  have hm : matmul (DotDims.plain N K H) none a W (constant ⟨2, ![N, H]⟩ .f32 0x00000000#32) (ix2 p q)
      = ∑ k : Fin K, a (ix2 p k) * W (ix2 k q) := by
    rw [show matmul (DotDims.plain N K H) none a W (constant ⟨2, ![N, H]⟩ .f32 0x00000000#32) (ix2 p q) = _ from
      Ideal.matmul_constant_zero_apply (DotDims.plain N K H) none a W (ix2 p q)]
    exact plain_sum a W (ix2 p q)
  rw [bcast_row hb b p q, bcast_row hb m p q, bcast_row hb g p q, bcast_row hb be p q, bcast_row hb _ p q, hm]
  rfl

/-! ## The host's spelling of a dense stage -/

/-- A vector broadcast to a one-row matrix and then down the rows, read at (p, q), is its entry q. -/
theorem bcast_two {N H : ℕ} (h1 : (⟨1, ![H]⟩ : Shape).BroadcastsInDim ⟨2, ![1, H]⟩ ![1])
    (h2 : (⟨2, ![1, H]⟩ : Shape).BroadcastsInDim ⟨2, ![N, H]⟩ ![0, 1]) (x : (⟨1, ![H]⟩ : Shape).Idx → EReal) (p : Fin N) (q : Fin H) :
    broadcastInDim (⟨2, ![N, H]⟩ : Shape) ![0, 1] h2 (broadcastInDim (⟨2, ![1, H]⟩ : Shape) ![1] h1 x) (ix2 p q) = x (ix1 q) := by
  refine (broadcastInDim_apply ![0, 1] h2 _ (ix2 p q) (ix2 0 q) fun a => ?_).trans
    (broadcastInDim_apply ![1] h1 x (ix2 0 q) (ix1 q) fun a => ?_)
  · match a with
    | ⟨0, _⟩ => simp
    | ⟨1, _⟩ =>
      show q.val = if H = 1 then 0 else q.val
      split
      · rename_i h; have := q.isLt; omega
      · rfl
  · match a with
    | ⟨0, _⟩ =>
      show q.val = if H = 1 then 0 else q.val
      split
      · rename_i h; have := q.isLt; omega
      · rfl

theorem host_lin {N K H : ℕ} {φa φw : FTy} (d : DotDims ⟨2, ![N, K]⟩ ⟨2, ![K, H]⟩ ⟨2, ![N, H]⟩) (hd : d = DotDims.plain N K H)
    (h0 : (⟨0, ![]⟩ : Shape).BroadcastsInDim ⟨1, ![H]⟩ ![])
    (h1 : (⟨1, ![H]⟩ : Shape).BroadcastsInDim ⟨2, ![1, H]⟩ ![1])
    (h2 : (⟨2, ![1, H]⟩ : Shape).BroadcastsInDim ⟨2, ![N, H]⟩ ![0, 1])
    (a : FVec Ideal ⟨2, ![N, K]⟩ φa) (W : FVec Ideal ⟨2, ![K, H]⟩ φw) (b g be m v : FVec Ideal ⟨1, ![H]⟩ .f32) :
    addf (mulf (mulf (subf (addf (Host.dotGeneral d none a W)
          (broadcastInDim (⟨2, ![N, H]⟩ : Shape) ![0, 1] h2 (broadcastInDim (⟨2, ![1, H]⟩ : Shape) ![1] h1 b)))
          (broadcastInDim (⟨2, ![N, H]⟩ : Shape) ![0, 1] h2 (broadcastInDim (⟨2, ![1, H]⟩ : Shape) ![1] h1 m)))
          (broadcastInDim (⟨2, ![N, H]⟩ : Shape) ![0, 1] h2 (broadcastInDim (⟨2, ![1, H]⟩ : Shape) ![1] h1
            (Host.rsqrt (addf v (broadcastInDim (⟨1, ![H]⟩ : Shape) ![] h0 (constant (⟨0, ![]⟩ : Shape) .f32 0x3727C5AC#32)))))))
          (broadcastInDim (⟨2, ![N, H]⟩ : Shape) ![0, 1] h2 (broadcastInDim (⟨2, ![1, H]⟩ : Shape) ![1] h1 g)))
          (broadcastInDim (⟨2, ![N, H]⟩ : Shape) ![0, 1] h2 (broadcastInDim (⟨2, ![1, H]⟩ : Shape) ![1] h1 be))
      = lin a W (vec b) (vec g) (vec be) (vec m) (vec v) := by
  subst hd
  funext i
  obtain ⟨p, q, rfl⟩ : ∃ (p : Fin N) (q : Fin H), i = ix2 p q := ⟨i 0, i 1, eq_ix2 i⟩
  simp only [addf_apply, mulf_apply, subf_apply]
  have hm : Host.dotGeneral (DotDims.plain N K H) none a W (ix2 p q) = ∑ k : Fin K, a (ix2 p k) * W (ix2 k q) := by
    rw [show Host.dotGeneral (DotDims.plain N K H) none a W (ix2 p q) = _ from
      Ideal.dotGeneral_apply (DotDims.plain N K H) none .single a W (ix2 p q)]
    exact plain_sum a W (ix2 p q)
  rw [bcast_two h1 h2 b p q, bcast_two h1 h2 m p q, bcast_two h1 h2 g p q, bcast_two h1 h2 be p q, bcast_two h1 h2 _ p q, hm]
  rfl

end Cert.Mlp

end
-- ==== Proof.TilePartial.lean ====
/-
  One tile of 512 rows, read at the ideal values: the kernel body's partial sum is the sum, over the tile's rows,
  of the row's reweighted cross-entropy.

  Every statistic of a row (its maximum, the sum of its shifted exponentials, the two sums against the one-hot
  mask) is taken along the row, kept as a column, and spread back over the row; read at an index each is a plain
  function of that row alone. The mask is the word compare of the lane number with the row's label, widened and
  converted: one where the lane is the label, zero elsewhere. The product against the weights is a sum over the
  middle coordinate. The last reduction adds the 512 rows' values.
-/
import proofs.«416013_j39883066311038_2_alg».proof.Proof.Gen.KernelIdeal.Skeleton
import proofs.«416013_j39883066311038_2_alg».proof.Proof.LibColumn
import proofs.«416013_j39883066311038_2_alg».proof.Proof.LibMlp
import proofs.«416013_j39883066311038_2_alg».proof.Proof.RowLoss
import Idealize.ShloMosaic.Lib.ValueIdx
import Idealize.ShloMosaic.Lib.Pipeline.Value
import Idealize.ShloMosaic.PureOps.Ideal.Laws
import Idealize.ShloMosaic.Lib.StableHlo.Predicate

noncomputable section

namespace Cert.KernelIdeal.Tile

open Idealize.ShloMosaic Idealize.ShloMosaic.ValueIdx Cert.KernelIdeal Cert.KernelIdeal.Gen Cert.Reweighted Cert.Attn.Column

/-! ## Pointwise operations at an index -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl
theorem cmpi_apply {s : Shape} {w : Nat} (p : CmpIPredicate) (a b : IVec s w) (i : s.Idx) :
    cmpi p a b i = IntOp.cmpi p (a i) (b i) := rfl
theorem scalar_ofBits (b : BitVec 32) : (Scalar.ofBits (F := Ideal) .f32 b : EReal) = Ideal.ofBits .f32 b := rfl

/-- The word of 1.0 is the extended real one. -/
theorem ofBits_one : Ideal.ofBits .f32 0x3F800000#32 = 1 := by
  simp [Ideal.ofBits, Ideal.ieee]
  norm_cast
  norm_num

/-! ## Row statistics kept as columns -/

/-- The index a reduction along the row reads at lane `k` of row `r`. -/
theorem lift_row (h : S512x1000.Reduces [1] S512) (r : Fin 512) (k : Fin 1000) : h.lift (ix1 r) k = ix2 r k := by
  funext a; apply Fin.ext
  match a with
  | ⟨0, _⟩ => rfl
  | ⟨1, _⟩ => rfl

/-- The index the closing reduction down the column reads at row `r`. -/
theorem lift_col (h : S512x1.Reduces [0] S1) (r : Fin 512) : h.lift (ix1 (0 : Fin 1)) r = ix2 r (0 : Fin 1) := by
  funext a; apply Fin.ext
  match a with
  | ⟨0, _⟩ => rfl
  | ⟨1, _⟩ => rfl

/-- A row sum kept as a column reads, at row `r`, the sum of that row. -/
theorem rowsum_col (h : S512x1000.Reduces [1] S512) (hsc : S512.ShapeCasts S512x1) (v : FVec Ideal S512x1000 .f32)
    (r : Fin 512) (u : Fin 1) :
    shapeCast S512x1 (multiReduction .add [1] S512 v 0x00000000#32 h (.inl rfl) rfl) hsc (ix2 r u)
      = ∑ k : Fin 1000, v (ix2 r k) := by
  rw [shapeCast_a_a1_apply]
  refine (Ideal.multiReduction_add_single v 0x00000000#32 h (.inl rfl) rfl (ix1 r)).trans ?_
  exact Finset.sum_congr rfl fun k _ => congrArg v (lift_row h r k)

/-- A row maximum kept as a column reads, at row `r`, the maximum of that row from the floor word. -/
theorem rowmax_col (h : S512x1000.Reduces [1] S512) (hsc : S512.ShapeCasts S512x1) (v : FVec Ideal S512x1000 .f32)
    (r : Fin 512) (u : Fin 1) :
    shapeCast S512x1 (multiReduction .maximumf [1] S512 v 0xFF800000#32 h (.inl rfl) rfl) hsc (ix2 r u)
      = rowMax (Ideal.ofBits .f32 0xFF800000#32) (fun k : Fin 1000 => v (ix2 r k)) := by
  rw [shapeCast_a_a1_apply]
  refine (Ideal.multiReduction_maximumf_single v 0xFF800000#32 h (.inl rfl) rfl (ix1 r)).trans ?_
  unfold rowMax
  exact congrArg (fun f => (Finset.univ : Finset (Fin 1000)).fold max (Ideal.ofBits .f32 0xFF800000#32) f)
    (funext fun k => congrArg v (lift_row h r k))

/-! ## The one-hot mask -/

/-- A word compare for equality, widened and read as a signed integer: one when the words are equal, else zero. -/
theorem onehot_word (a b : BitVec 32) : (((IntOp.cmpi .eq a b).setWidth 32).toInt : ℝ) = if a = b then 1 else 0 := by
  by_cases h : a = b
  · have e : ((1#1 : BitVec 1).setWidth 32).toInt = 1 := by decide
    rw [if_pos h, StableHlo.Predicate.cmpi_eq_iff.2 h, e]; norm_num
  · have e : ((0#1 : BitVec 1).setWidth 32).toInt = 0 := by decide
    rw [if_neg h, eq_zero_of_ne_one (mt StableHlo.Predicate.cmpi_eq_iff.1 h), e]; norm_num

/-- Lane numbers below 1000 are equal as words exactly when they are equal. -/
theorem ofNat_lane_eq (k t : Fin 1000) : BitVec.ofNat 32 k.val = BitVec.ofNat 32 t.val ↔ k = t := by
  constructor
  · intro h
    have := congrArg BitVec.toNat h
    simp only [BitVec.toNat_ofNat] at this
    have hk := k.isLt; have ht := t.isLt
    apply Fin.ext; omega
  · rintro rfl; rfl

/-! ## The product against the weights -/

/-- The matrix product into a zero accumulator at (r, j): the sum over the middle coordinate. -/
theorem matmul_row (a : FVec Ideal S512x1000 .bf16) (b : FVec Ideal S1000x1000 .bf16) (r : Fin 512) (j : Fin 1000) :
    matmul dot_S512x1000_S1000x1000_S512x1000_1_0_0_1_n_n none a b (constant S512x1000 .f32 0x00000000#32) (ix2 r j)
      = ∑ k : Fin 1000, a (ix2 r k) * b (ix2 k j) := by
  refine (Ideal.matmul_constant_zero_apply dot_S512x1000_S1000x1000_S512x1000_1_0_0_1_n_n none a b (ix2 r j)).trans ?_
  exact Cert.Mlp.plain_sum a b (ix2 r j)

/-! ## The body's intermediate vectors, named, each read at an index -/

section Body

variable (x0 : FVec Ideal S512x1000 .f32) (x1 : FVec Ideal S1000x1000 .bf16) (x2 : IVec S512x1 32)

/-- Row `r`'s maximum from the floor word: the shift of that row. -/
abbrev rowM (r : Fin 512) : EReal := rowMax (Ideal.ofBits .f32 0xFF800000#32) (fun k : Fin 1000 => x0 (ix2 r k))

/-- The sum of row `r`'s shifted exponentials. -/
abbrev rowS (r : Fin 512) : EReal := ∑ k : Fin 1000, Ideal.exp (x0 (ix2 r k) - rowM x0 r)

/-- The logits less their row's maximum. -/
def shifted : FVec Ideal S512x1000 .f32 :=
  subf x0 (broadcastTo S512x1000 (shapeCast S512x1
    (multiReduction .maximumf [1] S512 x0 0xFF800000#32 reduces_S512x1000_S512 (.inl rfl) rfl) shapeCasts_S512_S512x1)
    broadcasts_S512x1_S512x1000)

theorem shifted_apply (r : Fin 512) (k : Fin 1000) : shifted x0 (ix2 r k) = x0 (ix2 r k) - rowM x0 r := by
  unfold shifted
  rw [subf_apply, broadcastTo_a1_ab_apply, rowmax_col]

/-- The row sums of the shifted exponentials, as a column. -/
def sumExp : FVec Ideal S512x1 .f32 :=
  shapeCast S512x1 (multiReduction .add [1] S512 (exp (shifted x0)) 0x00000000#32 reduces_S512x1000_S512 (.inl rfl) rfl)
    shapeCasts_S512_S512x1

theorem sumExp_apply (r : Fin 512) (u : Fin 1) : sumExp x0 (ix2 r u) = rowS x0 r := by
  unfold sumExp
  rw [rowsum_col]
  exact Finset.sum_congr rfl fun k _ => by rw [exp_apply, shifted_apply]

/-- The one-hot mask of the labels. -/
def mask : FVec Ideal S512x1000 .f32 :=
  sitofp .f32 (extui 32 (cmpi .eq (iota .tc S512x1000 32 [1] iota_S512x1000_d1_w32)
    (broadcastTo S512x1000 (shapeCast S512x1 x2 shapeCasts_S512x1_S512x1) broadcasts_S512x1_S512x1000)) natLt_1_32)

/-- The mask at (r, k): one when lane `k` is row `r`'s label, zero elsewhere. -/
theorem mask_apply (lab : Fin 512 → Fin 1000) (hlab : ∀ r, x2 (ix2 r (0 : Fin 1)) = BitVec.ofNat 32 (lab r).val)
    (r : Fin 512) (k : Fin 1000) : mask x2 (ix2 r k) = if k = lab r then 1 else 0 := by
  unfold mask
  rw [sitofp_apply, extui_apply, cmpi_apply, iota_single_apply, broadcastTo_a1_ab_apply, shapeCast_self, hlab r]
  refine (congrArg (fun z : ℝ => (z : EReal)) (onehot_word (BitVec.ofNat 32 k.val) (BitVec.ofNat 32 (lab r).val))).trans ?_
  by_cases h : k = lab r
  · rw [if_pos ((ofNat_lane_eq k (lab r)).2 h), if_pos h]; rfl
  · rw [if_neg (mt (ofNat_lane_eq k (lab r)).1 h), if_neg h]; rfl

/-- A masked row sum, kept as a column, reads at row `r` the entry at the row's label. -/
theorem masked_col (v : FVec Ideal S512x1000 .f32) (lab : Fin 512 → Fin 1000)
    (hlab : ∀ r, x2 (ix2 r (0 : Fin 1)) = BitVec.ofNat 32 (lab r).val) (r : Fin 512) (u : Fin 1) :
    shapeCast S512x1 (multiReduction .add [1] S512 (mulf v (mask x2)) 0x00000000#32 reduces_S512x1000_S512 (.inl rfl) rfl)
      shapeCasts_S512_S512x1 (ix2 r u) = v (ix2 r (lab r)) := by
  rw [rowsum_col]
  exact sum_mul_onehot (fun k => v (ix2 r k)) (fun k => mask x2 (ix2 r k)) (lab r) (fun k => mask_apply x2 lab hlab r k)

/-- The cross-entropy column: the logarithm of the row sum less the shifted logit at the label. -/
def ce : FVec Ideal S512x1 .f32 :=
  subf (log (sumExp x0)) (shapeCast S512x1
    (multiReduction .add [1] S512 (mulf (shifted x0) (mask x2)) 0x00000000#32 reduces_S512x1000_S512 (.inl rfl) rfl)
    shapeCasts_S512_S512x1)

theorem ce_apply (lab : Fin 512 → Fin 1000) (hlab : ∀ r, x2 (ix2 r (0 : Fin 1)) = BitVec.ofNat 32 (lab r).val)
    (r : Fin 512) (u : Fin 1) :
    ce x0 x2 (ix2 r u) = Ideal.log (rowS x0 r) - (x0 (ix2 r (lab r)) - rowM x0 r) := by
  unfold ce
  rw [subf_apply, log_apply, sumExp_apply, masked_col x2 _ lab hlab, shifted_apply]

/-- The probabilities: the shifted exponential times the reciprocal of its row's sum. -/
def prob : FVec Ideal S512x1000 .f32 :=
  mulf (exp (shifted x0)) (broadcastTo S512x1000
    (divf (broadcast S512x1 (Scalar.ofBits .f32 0x3F800000#32)) (sumExp x0)) broadcasts_S512x1_S512x1000)

theorem prob_apply (r : Fin 512) (k : Fin 1000) :
    prob x0 (ix2 r k) = Ideal.exp (x0 (ix2 r k) - rowM x0 r) * Ideal.div 1 (rowS x0 r) := by
  unfold prob
  rw [mulf_apply, exp_apply, shifted_apply, broadcastTo_a1_ab_apply, divf_apply, broadcast_apply, sumExp_apply,
    scalar_ofBits, ofBits_one]

/-- The probabilities against the weights. -/
def weighted : FVec Ideal S512x1000 .f32 :=
  matmul dot_S512x1000_S1000x1000_S512x1000_1_0_0_1_n_n none (truncf .bf16 (prob x0) bitsLt_bf16_f32)
    (shapeCast S1000x1000 x1 shapeCasts_S1000x1000_S1000x1000)
    (constant S512x1000 .f32 0x00000000#32)

theorem weighted_apply (r : Fin 512) (j : Fin 1000) :
    weighted x0 x1 (ix2 r j) = ∑ k : Fin 1000, (Ideal.exp (x0 (ix2 r k) - rowM x0 r) * Ideal.div 1 (rowS x0 r)) * x1 (ix2 k j) := by
  unfold weighted
  rw [matmul_row, shapeCast_self]
  exact Finset.sum_congr rfl fun k _ => by rw [truncf_apply, prob_apply]

/-- One row's loss, as a column over the tile's rows. -/
def rowLossV : FVec Ideal S512x1 .f32 :=
  mulf (divf (exp (subf (broadcast S512x1 (Scalar.ofBits .f32 0x00000000#32)) (ce x0 x2)))
      (addf (shapeCast S512x1
          (multiReduction .add [1] S512 (mulf (weighted x0 x1) (mask x2)) 0x00000000#32 reduces_S512x1000_S512 (.inl rfl) rfl)
          shapeCasts_S512_S512x1)
        (broadcast S512x1 (Scalar.ofBits .f32 0x26901D7D#32))))
    (ce x0 x2)

theorem rowLossV_apply (lab : Fin 512 → Fin 1000) (hlab : ∀ r, x2 (ix2 r (0 : Fin 1)) = BitVec.ofNat 32 (lab r).val)
    (r : Fin 512) (u : Fin 1) :
    rowLossV x0 x1 x2 (ix2 r u)
      = kernelRow (fun k : Fin 1000 => x0 (ix2 r k)) (rowM x0 r) (lab r) (fun k j : Fin 1000 => x1 (ix2 k j))
          (Ideal.ofBits .f32 0x26901D7D#32) := by
  unfold rowLossV kernelRow
  rw [mulf_apply, divf_apply, exp_apply, subf_apply, addf_apply, broadcast_apply, broadcast_apply,
    ce_apply x0 x2 lab hlab, masked_col x2 _ lab hlab, weighted_apply, scalar_ofBits, scalar_ofBits, Ideal.ofBits_zero_f32]

/-- The body's payload is these vectors composed, then summed down the column. -/
theorem pay4_eq : k0_pay4 (F := Ideal) x0 x2 x1
    = shapeCast S1x1 (multiReduction .add [0] S1 (rowLossV x0 x1 x2) 0x00000000#32 reduces_S512x1_S1 (.inl rfl) rfl)
        shapeCasts_S1_S1x1 := rfl

/-! ## The tile -/

/-- The body's partial sum for one tile: the sum over the tile's 512 rows of the row's reweighted cross-entropy, each
    row read with its own maximum as the shift and its own label. -/
theorem tile_partial (lab : Fin 512 → Fin 1000) (hlab : ∀ r, x2 (ix2 r (0 : Fin 1)) = BitVec.ofNat 32 (lab r).val) :
    k0_pay4 (F := Ideal) x0 x2 x1 (ix2 (0 : Fin 1) (0 : Fin 1))
      = ∑ r : Fin 512, kernelRow (fun k : Fin 1000 => x0 (ix2 r k)) (rowM x0 r)
          (lab r) (fun k j : Fin 1000 => x1 (ix2 k j)) (Ideal.ofBits .f32 0x26901D7D#32) := by
  rw [pay4_eq, shapeCast_a_a1_apply]
  refine (Ideal.multiReduction_add_single (rowLossV x0 x1 x2) 0x00000000#32 reduces_S512x1_S1 (.inl rfl) rfl
    (ix1 (0 : Fin 1))).trans ?_
  refine Finset.sum_congr rfl fun (r : Fin 512) _ => ?_
  rw [show reduces_S512x1_S1.lift (ix1 (0 : Fin 1)) r = ix2 r (0 : Fin 1) from lift_col reduces_S512x1_S1 r]
  exact rowLossV_apply x0 x1 x2 lab hlab r 0

end Body

end Cert.KernelIdeal.Tile

end
-- ==== Proof.Blocks.lean ====
/-
  The three blocks a grid point reads, traced back to the program's arguments.

  Point `t` (core `t / 64`, tile `t % 64`) reads rows `512 t … 512 t + 511` of the logits and of the labels (the
  labels through the host's reshape to a column), and the whole weight matrix, which the host prepared before the
  region as `T` plus the word of 0.01 times the correction (the change of format is the identity at the ideal
  values).
-/
import proofs.«416013_j39883066311038_2_alg».proof.Proof.Gen.KernelIdeal.Frame
import proofs.«416013_j39883066311038_2_alg».proof.Proof.LibColumn
import Idealize.ShloMosaic.Lib.Pipeline.Value
import Idealize.ShloMosaic.Lib.StableHlo.Run
import Idealize.ShloMosaic.Lib.ValueIdx

noncomputable section

namespace Cert.KernelIdeal.Blocks

open Idealize.ShloMosaic Idealize.ShloMosaic.ValueIdx Idealize.ShloMosaic.TcCoe Idealize.SL.Sem
  Cert.KernelIdeal Cert.KernelIdeal.Gen Cert.Attn.Column

variable (m : (ℓ : Loc nD τ sig) → Buf (Elt Ideal) ℓ)

/-- The argument arrays on core `c`, at their literal types. -/
abbrev arrOut (c : Dev nD) : FVec Ideal S65536x1000 .f32 := m ((c : Thread nD τ).loc main_arg0)
abbrev arrCorr (c : Dev nD) : FVec Ideal S1000x1000 .f32 := m ((c : Thread nD τ).loc main_arg1)
abbrev arrLab (c : Dev nD) : IVec S65536 32 := m ((c : Thread nD τ).loc main_arg2)
abbrev arrT (c : Dev nD) : FVec Ideal S1000x1000 .f32 := m ((c : Thread nD τ).loc main_arg3)

/-- The input windows' block indices, decided over the grid: logits and labels move with the point, the weights stay. -/
theorem idx_in : ∀ t : Fin cfg0.N, win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0 :=
  (by decide +kernel : ∀ t : Fin grid0.N, win0_0.index t (0 : Fin 2) = t.val ∧ win0_0.index t (1 : Fin 2) = 0
    ∧ win0_2.index t (0 : Fin 2) = t.val ∧ win0_2.index t (1 : Fin 2) = 0
    ∧ win0_1.index t (0 : Fin 2) = 0 ∧ win0_1.index t (1 : Fin 2) = 0)

/-- Row `r` of point `t`'s tile, as a row of the whole array. -/
abbrev grow (t : Fin cfg0.N) (r : Fin 512) : Fin 65536 :=
  ⟨512 * t.val + r.val, by have h := t.isLt; have hN : cfg0.N = 128 := N_0; have := r.isLt; omega⟩

/-- The logits block is the tile's rows of the logits. -/
theorem logits_block (c : Dev nD) (t : Fin cfg0.N) (r : Fin 512) (k : Fin 1000) :
    (iblk m c 0 t : Vec Ideal S512x1000 .f32) (ix2 r k) = arrOut m c (ix2 (grow t r) k) := by
  unfold iblk
  rw [View.read_apply]
  show V m c main_arg0 _ = _
  rw [V_main_arg0 m c]
  congr 1
  funext a; apply Fin.ext
  obtain ⟨e0, e1, -⟩ := idx_in t
  match a with
  | ⟨0, _⟩ => show win0_0.index t (0 : Fin 2) * 512 + 1 * r.val = 512 * t.val + r.val; omega
  | ⟨1, _⟩ => show win0_0.index t (1 : Fin 2) * 1000 + 1 * k.val = k.val; omega

/-- The labels as the region finds them: the argument reshaped to a column. -/
theorem labels_arr (c : Dev nD) :
    (V m c main_v4 : IVec S65536x1 32) = shapeCast S65536x1 (m ((c : Thread nD τ).loc main_arg2)) shapeCasts_S65536_S65536x1 := by
  show StableHlo.after hostOps0 (fun b => m (c, b)) (Proc.devRef .tc main_v4) = _
  after_results
  rfl

/-- The labels block is the tile's rows of the labels. -/
theorem labels_block (c : Dev nD) (t : Fin cfg0.N) (r : Fin 512) :
    (iblk m c 2 t : Vec Ideal S512x1 .i32) (ix2 r (0 : Fin 1)) = arrLab m c (ix1 (grow t r)) := by
  unfold iblk
  rw [View.read_apply]
  show V m c main_v4 _ = _
  rw [labels_arr m c]
  have he : ((cfg0.win 2).blk t).view.emb (ix2 r (0 : Fin 1)) = ix2 (grow t r) (0 : Fin 1) := by
    funext a; apply Fin.ext
    obtain ⟨-, -, e0, e1, -⟩ := idx_in t
    match a with
    | ⟨0, _⟩ => show win0_2.index t (0 : Fin 2) * 512 + 1 * r.val = 512 * t.val + r.val; omega
    | ⟨1, _⟩ => show win0_2.index t (1 : Fin 2) * 1 + 1 * 0 = 0; omega
  rw [he, shapeCast_a_a1_apply]

/-- The weights as the region finds them: `T` plus the word of 0.01 times the correction, narrowed. -/
theorem weights_arr (c : Dev nD) :
    (V m c main_v3 : FVec Ideal S1000x1000 .bf16)
      = truncf .bf16 (addf (arrT m c)
          (mulf (broadcastInDim S1000x1000 ![] bcast_S_S1000x1000 (constant (F := Ideal) S_ .f32 0x3C23D70A#32))
            (arrCorr m c))) bitsLt_bf16_f32 := by
  show StableHlo.after hostOps0 (fun b => m (c, b)) (Proc.devRef .tc main_v3) = _
  after_results

/-- The weights block is the whole weight matrix. -/
theorem weights_block (c : Dev nD) (t : Fin cfg0.N) (k j : Fin 1000) :
    (iblk m c 1 t : Vec Ideal S1000x1000 .bf16) (ix2 k j)
      = arrT m c (ix2 k j) + Ideal.ofBits .f32 0x3C23D70A#32 * arrCorr m c (ix2 k j) := by
  unfold iblk
  rw [View.read_apply]
  show V m c main_v3 _ = _
  rw [weights_arr m c]
  have he : ((cfg0.win 1).blk t).view.emb (ix2 k j) = ix2 k j := by
    funext a; apply Fin.ext
    obtain ⟨-, -, -, -, e0, e1⟩ := idx_in t
    match a with
    | ⟨0, _⟩ => show win0_1.index t (0 : Fin 2) * 1000 + 1 * k.val = k.val; omega
    | ⟨1, _⟩ => show win0_1.index t (1 : Fin 2) * 1000 + 1 * j.val = j.val; omega
  rw [he]
  rfl

end Cert.KernelIdeal.Blocks

end
-- ==== Proof.LibGatherPair.lean ====
/-
  jnp's `x[rows, cols]` on an `[R, C]` table: a gather through an `[n, 2]` table of start indices, both operand axes
  collapsed and both named by the start index map. Read at position `p` it is the table at the two start words of
  row `p`, each read as a signed integer and clamped into its axis. The start-index table is two `[n, 1]` columns
  side by side: column 0 of the pair is the first column, column 1 the second. NumPy's rule for a negative index
  (add the extent when the word is negative) followed by the clamp is the identity on a word in range.
-/
import Idealize.ShloMosaic.Lib.Pipeline.Value
import Idealize.ShloMosaic.Lib.ValueIdx
import Idealize.ShloMosaic.Lib.StableHlo.Predicate

noncomputable section

namespace Cert.GatherPair

open Idealize.ShloMosaic Idealize.ShloMosaic.ValueIdx

variable {α : Type}

/-! ## Two columns side by side -/

/-- Column 0 of two `[n, 1]` columns joined along axis 1 is the first column. -/
theorem concat_col0 {n : ℕ} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (0 : Fin 2)) = a (ix2 p (0 : Fin 1)) :=
  concatenate_pair_apply_left 1 a b h (ix2 p (0 : Fin 2)) rfl (ix2 p (0 : Fin 1)) fun c => by
    match c with
    | ⟨0, _⟩ => rfl
    | ⟨1, _⟩ => rfl

/-- Column 1 of the pair is the second column. -/
theorem concat_col1 {n : ℕ} (a b : (⟨2, ![n, 1]⟩ : Shape).Idx → α)
    (h : Shape.Concatenates [(⟨2, ![n, 1]⟩ : Shape), ⟨2, ![n, 1]⟩] ⟨2, ![n, 2]⟩ 1) (p : Fin n) :
    concatenate ⟨2, ![n, 2]⟩ 1 [⟨⟨2, ![n, 1]⟩, a⟩, ⟨⟨2, ![n, 1]⟩, b⟩] h (ix2 p (1 : Fin 2)) = b (ix2 p (0 : Fin 1)) :=
  concatenate_pair_apply_right 1 a b h (ix2 p (1 : Fin 2)) rfl rfl (ix2 p (0 : Fin 1))
    (fun c hc => by
      match c with
      | ⟨0, _⟩ => rfl
      | ⟨1, _⟩ => exact absurd rfl hc)
    rfl

/-! ## The gather -/

/-- The dimension numbers of `x[rows, cols]`: no offset axis, both operand axes collapsed, the start index's two
    components naming axes 0 and 1, the index vector along axis 1 of the start-index table, unit slices. -/
abbrev pairDims (R C n : ℕ)
    (wf : GatherDims.WF ⟨2, ![R, C]⟩ ⟨2, ![n, 2]⟩ ⟨1, ![n]⟩ [] [0, 1] [] [0, 1] [] 1 ![1, 1]) :
    GatherDims ⟨2, ![R, C]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

/-- THE GATHER READ AT `p`: the table at row `idx[p, 0]` and column `idx[p, 1]`, each read signed and clamped into
    its axis. -/
theorem gather_pair_apply {R C n w : ℕ} (hR : 0 < R) (hC : 0 < C)
    (wf : GatherDims.WF ⟨2, ![R, C]⟩ ⟨2, ![n, 2]⟩ ⟨1, ![n]⟩ [] [0, 1] [] [0, 1] [] 1 ![1, 1])
    (x : (⟨2, ![R, C]⟩ : Shape).Idx → α) (idx : IVec ⟨2, ![n, 2]⟩ w) (p : Fin n) :
    Host.gather (pairDims R C n wf) x idx (ix1 p)
      = x (ix2 ⟨min (idx (ix2 p (0 : Fin 2))).toInt.toNat (R - 1), by omega⟩
            ⟨min (idx (ix2 p (1 : Fin 2))).toInt.toNat (C - 1), by omega⟩) := by
  unfold Host.gather
  congr 1
  funext a
  refine Fin.ext ?_
  have hsi : ∀ (k : Fin 2) (hk : k.val < (pairDims R C n wf).startIndexMap.length),
      (pairDims R C n wf).siIdx (ix1 p) ⟨k.val, hk⟩ = ix2 p k := by
    intro k hk
    funext b; refine Fin.ext ?_
    match b with
    | ⟨0, _⟩ => rfl
    | ⟨1, _⟩ => rfl
  match a with
  | ⟨0, _⟩ =>
    show (pairDims R C n wf).start (ix1 p) idx 0 + (pairDims R C n wf).batchCoord (ix1 p) 0
      + (pairDims R C n wf).offCoord (ix1 p) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (0 : Fin 2) ∈ (pairDims R C n wf).startIndexMap by simp)]
    rw [show (⟨List.idxOf (0 : Fin 2) (pairDims R C n wf).startIndexMap, List.idxOf_lt_length_iff.2 (by simp)⟩ :
        Fin (pairDims R C n wf).startIndexMap.length) = ⟨(0 : Fin 2).val, by simp⟩ from
        Fin.ext (by show List.idxOf (0 : Fin 2) [(0 : Fin 2), 1] = 0; decide),
      hsi 0 (by simp)]
    rfl
  | ⟨1, _⟩ =>
    show (pairDims R C n wf).start (ix1 p) idx 1 + (pairDims R C n wf).batchCoord (ix1 p) 1
      + (pairDims R C n wf).offCoord (ix1 p) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (show (1 : Fin 2) ∈ (pairDims R C n wf).startIndexMap by simp)]
    rw [show (⟨List.idxOf (1 : Fin 2) (pairDims R C n wf).startIndexMap, List.idxOf_lt_length_iff.2 (by simp)⟩ :
        Fin (pairDims R C n wf).startIndexMap.length) = ⟨(1 : Fin 2).val, by simp⟩ from
        Fin.ext (by show List.idxOf (1 : Fin 2) [(0 : Fin 2), 1] = 1; decide),
      hsi 1 (by simp)]
    rfl

/-! ## An index in range through NumPy's rule and the clamp -/

/-- A word that is the number `k < N` (with `N` below `2 ^ 31`): adding `N` when it is negative changes nothing, and
    read signed and clamped into `[0, N - 1]` it is `k`. -/
theorem wrap_clamp (b : BitVec 32) (k N : ℕ) (hb : b = BitVec.ofNat 32 k) (hk : k < N) (hN : N < 2 ^ 31) :
    min (Scalar.select (IntOp.cmpi .slt b 0#32) (IntOp.addi b (BitVec.ofNat 32 N)) b).toInt.toNat (N - 1) = k := by
  subst hb
  have hk31 : k < 2 ^ 31 := lt_trans hk hN
  have hnn : ¬IntOp.cmpi .slt (BitVec.ofNat 32 k) 0#32 = 1#1 := by
    intro h
    have := (StableHlo.Predicate.slt_iff_toNat (a := BitVec.ofNat 32 k) (b := 0#32)
      (by rw [BitVec.toNat_ofNat]; omega) (by decide)).1 h
    simp at this
  rw [eq_zero_of_ne_one hnn, select_zero, StableHlo.Predicate.toInt_ofNat_small k hk31, Int.toNat_natCast]
  omega

end Cert.GatherPair

end
-- ==== Proof.RefValue.lean ====
/-
  The reference, read at the ideal values: its result is the sum over all 65536 rows of the row's reweighted
  cross-entropy, started from the zero word and divided by the word of 65536.

  Row `p`'s statistics are taken along the row and spread back; `p[rows, target]`, `out_T[rows, target]` and
  `log_p[rows, target]` are gathers through a table of start indices whose row `p` is (`p`, label of `p`), both
  passed through NumPy's negative-index rule, and with the label in range each reads entry (`p`, label) of its
  table.
-/
import proofs.«416013_j39883066311038_2_alg».proof.Proof.RefRead
import proofs.«416013_j39883066311038_2_alg».proof.Proof.RowLoss
import proofs.«416013_j39883066311038_2_alg».proof.Proof.LibGatherPair
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen
  Cert.ReferenceIdeal.Read Cert.Reweighted Cert.GatherPair

variable (x0 : FVec Ideal S65536x1000 .f32) (x1 x3 : FVec Ideal S1000x1000 .f32) (x2 : IVec S65536 32)

/-- Row `p`'s maximum from the floor word. -/
abbrev rowM (p : Fin 65536) : EReal := rowMax (Ideal.ofBits .f32 0xFF800000#32) (fun k : Fin 1000 => x0 (ix2 p k))
/-- The sum of row `p`'s shifted exponentials. -/
abbrev rowS (p : Fin 65536) : EReal := ∑ k : Fin 1000, Ideal.exp (x0 (ix2 p k) - rowM x0 p)
/-- Row `p`'s log-probability at lane `k`. -/
abbrev logp (p : Fin 65536) (k : Fin 1000) : EReal := (x0 (ix2 p k) - rowM x0 p) - Ideal.log (rowS x0 p)
/-- The weights: `T` plus the word of 0.01 times the correction. -/
abbrev wt (k j : Fin 1000) : EReal := x3 (ix2 k j) + Ideal.ofBits .f32 0x3C23D70A#32 * x1 (ix2 k j)

/-! ## Row statistics -/

theorem lift_row (h : S65536x1000.Reduces [1] S65536) (p : Fin 65536) (k : Fin 1000) : h.lift (ix1 p) k = ix2 p k := by
  funext a; apply Fin.ext
  match a with
  | ⟨0, _⟩ => rfl
  | ⟨1, _⟩ => rfl

theorem max_apply (p : Fin 65536) : val_main_call0_v2 (F := Ideal) x0 (ix1 p) = rowM x0 p := by
  have hfold : val_main_call0_v0 (F := Ideal) x0 (ix1 p) = rowM x0 p := by
    unfold val_main_call0_v0
    rw [Host.reduce_eq_fold_single FloatOps.maximumf x0 _ reducesTo_S65536x1000_S65536_d1 (by decide) h_S_ (ix1 p)]
    exact congrArg (fun f => (Finset.univ : Finset (Fin 1000)).fold max (Ideal.ofBits .f32 0xFF800000#32) f)
      (funext fun k => congrArg x0 (lift_row _ p k))
  rw [val_main_call0_v2_apply, hfold]
  show max (Ideal.ofBits .f32 0xFF800000#32) (rowM x0 p) = rowM x0 p
  exact max_eq_right ((Finset.le_fold_max _).2 (Or.inl le_rfl))

theorem shifted_apply (p : Fin 65536) (k : Fin 1000) :
    val_main_call0_v5 (F := Ideal) x0 (ix2 p k) = x0 (ix2 p k) - rowM x0 p := by
  rw [val_main_call0_v5_apply, val_main_call0_v4_apply, val_main_call0_v3_apply,
    show idx_main_call0_v3 (idx_main_call0_v4 (ix2 p k)) = ix1 p from
      funext fun a => Fin.ext (by match a with | ⟨0, _⟩ => rfl), max_apply]
  rfl

theorem sum_apply (p : Fin 65536) : val_main_call0_v7 (F := Ideal) x0 (ix1 p) = rowS x0 p := by
  rw [val_main_call0_v7_apply, val_main_call0_cst_1_apply]
  show Ideal.ofBits .f32 0x00000000#32 + _ = _
  rw [Ideal.ofBits_zero_f32, zero_add]
  refine Finset.sum_congr rfl fun k _ => ?_
  rw [show idx_main_call0_v7 (ix1 p) k = ix2 p k from
    funext fun a => Fin.ext (by match a with | ⟨0, _⟩ => rfl | ⟨1, _⟩ => rfl), val_main_call0_v6_apply, shifted_apply]
  rfl

theorem logp_apply (p : Fin 65536) (k : Fin 1000) : val_main_v1 (F := Ideal) x0 (ix2 p k) = logp x0 p k := by
  rw [val_main_v1_apply, shifted_apply, val_main_call0_v10_apply, val_main_call0_v9_apply, val_main_call0_v8_apply,
    show idx_main_call0_v8 (idx_main_call0_v10 (ix2 p k)) = ix1 p from
      funext fun a => Fin.ext (by match a with | ⟨0, _⟩ => rfl), sum_apply]
  rfl

theorem prob_apply (p : Fin 65536) (k : Fin 1000) : val_main_v2 (F := Ideal) x0 (ix2 p k) = Ideal.exp (logp x0 p k) := by
  rw [val_main_v2_apply, logp_apply]
  rfl

/-! ## The weights and the product -/

theorem wt_apply (k j : Fin 1000) : val_main_v5 (F := Ideal) x1 x3 (ix2 k j) = wt x1 x3 k j := by
  rw [val_main_v5_apply, val_main_v4_apply, val_main_v3_apply, val_main_cst_apply]
  rfl

theorem dot_apply (p : Fin 65536) (j : Fin 1000) :
    val_main_v6 (F := Ideal) x0 x1 x3 (ix2 p j) = ∑ k : Fin 1000, Ideal.exp (logp x0 p k) * wt x1 x3 k j := by
  rw [val_main_v6_apply]
  refine Finset.sum_congr rfl fun k _ => ?_
  rw [show lidx_main_v6 (ix2 p j) k = ix2 p k from
      funext fun a => Fin.ext (by match a with | ⟨0, _⟩ => rfl | ⟨1, _⟩ => rfl),
    show ridx_main_v6 (ix2 p j) k = ix2 k j from
      funext fun a => Fin.ext (by match a with | ⟨0, _⟩ => rfl | ⟨1, _⟩ => rfl),
    prob_apply, wt_apply]

/-- A sum over the indices of a rank-one array is the sum over its positions. -/
theorem sum_idx1 {n : ℕ} (f : (⟨1, ![n]⟩ : Shape).Idx → EReal) : ∑ j, f j = ∑ p : Fin n, f (ix1 p) :=
  (Fintype.sum_equiv ⟨fun p : Fin n => (ix1 p : (⟨1, ![n]⟩ : Shape).Idx), fun j => j 0, fun _ => rfl,
    fun j => (eq_ix1 j).symm⟩ _ _ fun _ => rfl).symm

/-! ## The start-index table and the gathers -/

section Gathers

variable (lab : Fin 65536 → Fin 1000) (hlab : ∀ p, x2 (ix1 p) = BitVec.ofNat 32 (lab p).val)

/-- The three start-index tables are one. -/
theorem table33 : val_main_v33 (F := Ideal) x2 = val_main_v19 (F := Ideal) x2 := rfl
theorem table50 : val_main_v50 (F := Ideal) x2 = val_main_v19 (F := Ideal) x2 := rfl

/-- Row `p` of the table names row `p` of the operand, -/
theorem table_row (p : Fin 65536) :
    min (val_main_v19 (F := Ideal) x2 (ix2 p (0 : Fin 2))).toInt.toNat (65536 - 1) = p.val := by
  unfold val_main_v19
  rw [concat_col0, val_main_v17_apply,
    show idx_main_v17 (ix2 p (0 : Fin 1)) = ix1 p from funext fun a => Fin.ext (by match a with | ⟨0, _⟩ => rfl),
    val_main_v11_apply, val_main_v8_apply, val_main_v10_apply, val_main_v0_apply, val_main_v7_apply, val_main_c_apply,
    val_main_v9_apply, val_main_c_0_apply]
  exact wrap_clamp (BitVec.ofNat 32 p.val) p.val 65536 rfl p.isLt (by decide)

include hlab

/-- and its label's lane. -/
theorem table_col (p : Fin 65536) :
    min (val_main_v19 (F := Ideal) x2 (ix2 p (1 : Fin 2))).toInt.toNat (1000 - 1) = (lab p).val := by
  unfold val_main_v19
  rw [concat_col1, val_main_v18_apply,
    show idx_main_v18 (ix2 p (0 : Fin 1)) = ix1 p from funext fun a => Fin.ext (by match a with | ⟨0, _⟩ => rfl),
    val_main_v16_apply, val_main_v13_apply, val_main_v15_apply, val_main_v12_apply, val_main_c_1_apply,
    val_main_v14_apply, val_main_c_2_apply]
  exact wrap_clamp (x2 (ix1 p)) (lab p).val 1000 (hlab p) (lab p).isLt (by decide)

/-- So a gather through the table reads entry (`p`, label of `p`) of its operand. -/
theorem gather_at (T : FVec Ideal S65536x1000 .f32) (p : Fin 65536) :
    Host.gather gather_S65536x1000_S65536x2_S65536_n_01_n_n_01_1_11 T (val_main_v19 (F := Ideal) x2) (ix1 p)
      = T (ix2 p (lab p)) := by
  refine (gather_pair_apply (R := 65536) (C := 1000) (n := 65536) (by decide) (by decide)
    gather_S65536x1000_S65536x2_S65536_n_01_n_n_01_1_11.wf T (val_main_v19 (F := Ideal) x2) p).trans ?_
  exact congrArg T (funext fun a => Fin.ext (by
    match a with
    | ⟨0, _⟩ => exact table_row x2 p
    | ⟨1, _⟩ => exact table_col x2 lab hlab p))

/-! ## One row of the last product, and the result -/

theorem row_apply (p : Fin 65536) :
    val_main_v53 (F := Ideal) x0 x1 x2 x3 (ix1 p)
      = referenceRow (fun k : Fin 1000 => x0 (ix2 p k)) (rowM x0 p) (lab p) (wt x1 x3) (Ideal.ofBits .f32 0x26901D7D#32) := by
  have h20 : val_main_v20 (F := Ideal) x0 x2 (ix1 p) = Ideal.exp (logp x0 p (lab p)) := by
    unfold val_main_v20; rw [gather_at x2 lab hlab, prob_apply]
  have h34 : val_main_v34 (F := Ideal) x0 x1 x2 x3 (ix1 p) = ∑ k : Fin 1000, Ideal.exp (logp x0 p k) * wt x1 x3 k (lab p) := by
    unfold val_main_v34; rw [table33, gather_at x2 lab hlab, dot_apply]
  have h51 : val_main_v51 (F := Ideal) x0 x2 (ix1 p) = logp x0 p (lab p) := by
    unfold val_main_v51; rw [table50, gather_at x2 lab hlab, logp_apply]
  rw [val_main_v53_apply, val_main_v37_apply, val_main_v36_apply, val_main_v52_apply, h20, h34, h51, val_main_v35_apply,
    val_main_cst_7_apply]
  rfl

/-- The reference's result: the rows' values summed from zero, divided by the word of 65536. -/
theorem result_apply (i : S_.Idx) :
    val_main_v55 (F := Ideal) x0 x1 x2 x3 i
      = Ideal.div (0 + ∑ p : Fin 65536, referenceRow (fun k : Fin 1000 => x0 (ix2 p k)) (rowM x0 p) (lab p) (wt x1 x3)
          (Ideal.ofBits .f32 0x26901D7D#32)) (Ideal.ofBits .f32 0x47800000#32) := by
  rw [val_main_v55_apply, val_main_v54_apply, val_main_cst_12_apply, val_main_cst_13_apply, sum_idx1]
  show Ideal.div (Ideal.ofBits .f32 0x00000000#32 + _) _ = _
  rw [Ideal.ofBits_zero_f32]
  exact congrArg (fun s => Ideal.div (0 + s) (Ideal.ofBits .f32 0x47800000#32))
    (Finset.sum_congr rfl fun p _ => row_apply x0 x1 x3 x2 lab hlab p)

end Gathers

end Cert.ReferenceIdeal.RefValue

end
-- ==== Proof.Bridge.lean ====
/-
  The two programs meet: each ends at the sum over all 65536 rows of one and the same row term — the row's
  reweighted cross-entropy as a function of the argument arrays — started from zero and divided by the word of
  65536.

  The kernel reaches it tile by tile: a tile's partial sum is the sum of its 512 rows' terms (the kernel's spelling
  of a row equals the reference's when the row is real and shifted by its own maximum), a core's cell after its last
  tile is the sum of its 64 tiles' partial sums, and the two cores' cells together are all 128 tiles. The reference
  reaches it in one sum.
-/
import proofs.«416013_j39883066311038_2_alg».proof.Proof.KernelValue
import proofs.«416013_j39883066311038_2_alg».proof.Proof.TilePartial
import proofs.«416013_j39883066311038_2_alg».proof.Proof.Blocks
import proofs.«416013_j39883066311038_2_alg».proof.Proof.RefValue
import proofs.«416013_j39883066311038_2_alg».proof.Proof.RowLoss

noncomputable section

namespace Cert.Bridge

open Idealize.ShloMosaic Idealize.ShloMosaic.ValueIdx Idealize.ShloMosaic.TcCoe Idealize.SL.Sem Cert.Reweighted

/-- Row `g`'s term, from the argument arrays: the reference's spelling of the row, shifted by the row's own maximum,
    against the weights `T + 0.01 · correction`; zero past the last row. -/
def rowTerm (a0 : (⟨2, ![65536, 1000]⟩ : Shape).Idx → EReal) (a1 a3 : (⟨2, ![1000, 1000]⟩ : Shape).Idx → EReal)
    (lab : Fin 65536 → Fin 1000) (g : ℕ) : EReal :=
  if h : g < 65536 then
    referenceRow (fun k : Fin 1000 => a0 (ix2 (⟨g, h⟩ : Fin 65536) k))
      (rowMax (Ideal.ofBits .f32 0xFF800000#32) (fun k : Fin 1000 => a0 (ix2 (⟨g, h⟩ : Fin 65536) k)))
      (lab ⟨g, h⟩) (fun k j : Fin 1000 => a3 (ix2 k j) + Ideal.ofBits .f32 0x3C23D70A#32 * a1 (ix2 k j))
      (Ideal.ofBits .f32 0x26901D7D#32)
  else 0

/-! ## The kernel -/

section Kernel

open Cert.KernelIdeal Cert.KernelIdeal.Gen Cert.KernelIdeal.Acc Cert.KernelIdeal.Tile Cert.KernelIdeal.Blocks

variable (m : (ℓ : Loc nD τ sig) → Buf (Elt Ideal) ℓ) (c : Dev nD)
variable (xr : S65536x1000.Idx → ℝ) (hx : ∀ i, arrOut m c i = (xr i : EReal))
variable (lab : Fin 65536 → Fin 1000) (hlab : ∀ p, arrLab m c (ix1 p) = BitVec.ofNat 32 (lab p).val)

include hx hlab

/-- A tile's partial sum is the sum of its 512 rows' terms. -/
theorem partv_eq (n : ℕ) (hn : n < 128) :
    partv m c n = ∑ r ∈ Finset.range 512, rowTerm (arrOut m c) (arrCorr m c) (arrT m c) lab (n * 512 + r) := by
  have hN : cfg0.N = 128 := N_0
  have hn' : n < cfg0.N := by omega
  unfold partv
  rw [dif_pos hn', Finset.sum_range]
  refine (tile_partial (iblk m c 0 ⟨n, hn'⟩) (iblk m c 1 ⟨n, hn'⟩) (iblk m c 2 ⟨n, hn'⟩)
    (fun r => lab (grow ⟨n, hn'⟩ r))
    (fun r => (labels_block m c ⟨n, hn'⟩ r).trans (hlab (grow ⟨n, hn'⟩ r)))).trans ?_
  refine Finset.sum_congr rfl fun r _ => ?_
  have hg : n * 512 + r.val < 65536 := by have := r.isLt; omega
  unfold rowTerm
  rw [dif_pos hg]
  have hgr : (⟨n * 512 + r.val, hg⟩ : Fin 65536) = grow ⟨n, hn'⟩ r :=
    Fin.ext (by show n * 512 + r.val = 512 * n + r.val; omega)
  rw [hgr]
  have hrow : (fun k : Fin 1000 => (iblk m c 0 ⟨n, hn'⟩ : Vec Ideal S512x1000 .f32) (ix2 r k))
      = fun k : Fin 1000 => ((xr (ix2 (grow ⟨n, hn'⟩ r) k) : ℝ) : EReal) :=
    funext fun k => (logits_block m c ⟨n, hn'⟩ r k).trans (hx _)
  have hrow' : (fun k : Fin 1000 => arrOut m c (ix2 (grow ⟨n, hn'⟩ r) k))
      = fun k : Fin 1000 => ((xr (ix2 (grow ⟨n, hn'⟩ r) k) : ℝ) : EReal) := funext fun k => hx _
  have hw : (fun k j : Fin 1000 => (iblk m c 1 ⟨n, hn'⟩ : Vec Ideal S1000x1000 .bf16) (ix2 k j))
      = fun k j : Fin 1000 => arrT m c (ix2 k j) + Ideal.ofBits .f32 0x3C23D70A#32 * arrCorr m c (ix2 k j) :=
    funext fun k => funext fun j => weights_block m c ⟨n, hn'⟩ k j
  show kernelRow (fun k : Fin 1000 => (iblk m c 0 ⟨n, hn'⟩ : Vec Ideal S512x1000 .f32) (ix2 r k))
      (rowMax (Ideal.ofBits .f32 0xFF800000#32) (fun k : Fin 1000 => (iblk m c 0 ⟨n, hn'⟩ : Vec Ideal S512x1000 .f32) (ix2 r k)))
      (lab (grow ⟨n, hn'⟩ r)) (fun k j : Fin 1000 => (iblk m c 1 ⟨n, hn'⟩ : Vec Ideal S1000x1000 .bf16) (ix2 k j))
      (Ideal.ofBits .f32 0x26901D7D#32) = _
  rw [hrow, hrow', hw]
  exact kernelRow_eq_referenceRow_max _ _ _ _

/-- The kernel's result: all rows' terms summed from zero, divided by the word of 65536. -/
theorem kernel_result :
    Ideal.div (cellv m c 63 + cellv m c 127) (Ideal.ofBits .f32 0x47800000#32)
      = Ideal.div (0 + ∑ g ∈ Finset.range 65536, rowTerm (arrOut m c) (arrCorr m c) (arrT m c) lab g)
          (Ideal.ofBits .f32 0x47800000#32) := by
  have hN : cfg0.N = 128 := N_0
  have h63 : cellv m c 63 = ∑ j ∈ Finset.range 64, partv m c (64 * 0 + j) :=
    cellv_eq_sum m c 0 63 (by decide) (by omega)
  have h127 : cellv m c 127 = ∑ j ∈ Finset.range 64, partv m c (64 * 1 + j) :=
    cellv_eq_sum m c 1 63 (by decide) (by omega)
  rw [h63, h127, halves_blocks _ (partv m c) (partv_eq m c xr hx lab hlab), zero_add]

end Kernel

/-! ## The reference -/

section Reference

open Cert.ReferenceIdeal Cert.ReferenceIdeal.Gen Cert.ReferenceIdeal.Read Cert.ReferenceIdeal.RefValue

variable (x0 : FVec Ideal Cert.ReferenceIdeal.S65536x1000 .f32) (x1 x3 : FVec Ideal Cert.ReferenceIdeal.S1000x1000 .f32)
  (x2 : IVec Cert.ReferenceIdeal.S65536 32)
variable (lab : Fin 65536 → Fin 1000) (hlab : ∀ p, x2 (ix1 p) = BitVec.ofNat 32 (lab p).val)

include hlab

/-- The reference's result: the same. -/
theorem reference_result (i : Cert.ReferenceIdeal.S_.Idx) :
    val_main_v55 (F := Ideal) x0 x1 x2 x3 i
      = Ideal.div (0 + ∑ g ∈ Finset.range 65536, rowTerm x0 x1 x3 lab g) (Ideal.ofBits .f32 0x47800000#32) := by
  rw [result_apply x0 x1 x3 x2 lab hlab i, Finset.sum_range]
  refine congrArg (fun s => Ideal.div (0 + s) (Ideal.ofBits .f32 0x47800000#32)) (Finset.sum_congr rfl fun p _ => ?_)
  unfold rowTerm
  rw [dif_pos p.isLt]

end Reference

end Cert.Bridge

end
-- ==== Proof.lean ====
/-
  The reweighted cross-entropy of 65536 rows of 1000 logits, as a two-core tiled kernel and as one jnp expression:
  both end, over the extended reals, at

      ( 0 + Σ_p  β_p · ce_p ) / 65536,     ce_p = -log softmax(out_p)[t_p],
                                            β_p  = softmax(out_p)[t_p] / ((softmax(out_p) · W)[t_p] + ε),

  with `W = T + 0.01 · correction`, `t_p` row `p`'s label and `ε` the word of 1e-15.

  The kernel forms the probabilities as `exp(s) · (1 / Σ exp(s))` of the row's logits `s` shifted by their maximum,
  the cross-entropy as `log Σ exp(s) - s[t]`, the label's probability as `exp(0 - ce)`, and picks entry `t` of a row
  by a sum against a one-hot mask; the reference forms `log p = s - log Σ exp(s)`, `p = exp(log p)`, and picks entries
  by gathers. For finite logits every one of these is a real number and `exp(a - log S) = exp(a) · (1 / S)` joins the
  two; a label in `[0, 1000)` makes the mask sum and the gather pick the same entry. The kernel adds the rows tile by
  tile (512 rows), the tiles into one scratch cell per core (64 tiles, reset at the first), and the two cores' cells
  on the host; sums of extended reals may be regrouped freely, so this is the reference's one sum.

  The precondition adds to the finiteness of the float inputs that every label lies in `[0, 1000)`: outside that
  range the reference's gathers index out of range (they wrap or clamp) while the mask is empty.

  The kernel's frames are the generated ones; its value is read off the generated frame run (KernelValue.lean,
  TilePartial.lean, Blocks.lean), the reference's off its run and read-at-an-index lemmas (RefRun.lean, RefRead.lean,
  RefValue.lean); Bridge.lean joins them over the mathematics of RowLoss.lean, and PreFacts.lean reads the
  precondition.
-/
import proofs.«416013_j39883066311038_2_alg».proof.Defs
import proofs.«416013_j39883066311038_2_alg».proof.Proof.Gen.Kernel
import proofs.«416013_j39883066311038_2_alg».proof.Proof.Gen.Kernel.Skeleton
import proofs.«416013_j39883066311038_2_alg».proof.Proof.Gen.Kernel.Launch
import proofs.«416013_j39883066311038_2_alg».proof.Proof.Gen.Kernel.Points
import proofs.«416013_j39883066311038_2_alg».proof.Proof.Gen.Kernel.Frame
import proofs.«416013_j39883066311038_2_alg».proof.Proof.Gen.KernelIdeal
import proofs.«416013_j39883066311038_2_alg».proof.Proof.Gen.KernelIdeal.Skeleton
import proofs.«416013_j39883066311038_2_alg».proof.Proof.Gen.KernelIdeal.Launch
import proofs.«416013_j39883066311038_2_alg».proof.Proof.Gen.KernelIdeal.Points
import proofs.«416013_j39883066311038_2_alg».proof.Proof.Gen.KernelIdeal.Frame
import proofs.«416013_j39883066311038_2_alg».proof.Proof.Gen.ReferenceIdeal
import proofs.«416013_j39883066311038_2_alg».proof.Proof.Gen.Pre_finite_inputs
import proofs.«416013_j39883066311038_2_alg».proof.Proof.RefRead
import proofs.«416013_j39883066311038_2_alg».proof.Proof.PreFacts
import proofs.«416013_j39883066311038_2_alg».proof.Proof.Bridge
import Idealize.ShloMosaic.Adequacy
import Idealize.ShloMosaic.Init

noncomputable section

namespace Cert.Proof

open Idealize.ShloMosaic Idealize.ShloMosaic.ValueIdx Idealize.ShloMosaic.TcCoe Idealize.SL.Sem

/-! ## The frames -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-! ## Equal results -/

/-- Both programs end at all rows' terms summed from zero and divided by the word of 65536. -/
theorem algebraic : Cert.algebraic_KernelIdeal_ReferenceIdeal := by
  intro m ρ m' ρ' hpre hagree
  have hdom := fun c => Cert.Pre_finite_inputs.Domain.of_pre _ _ _ _ (hpre c)
  choose xr hxr using fun c => (hdom c).1
  choose lab hlab using fun c => (hdom c).2
  refine ⟨fun c => fun _ => Ideal.div (0 + ∑ g ∈ Finset.range 65536,
      Cert.Bridge.rowTerm (Cert.KernelIdeal.Blocks.arrOut m c) (Cert.KernelIdeal.Blocks.arrCorr m c)
        (Cert.KernelIdeal.Blocks.arrT m c) (fun p => lab c (ix1 p)) g) (Ideal.ofBits .f32 0x47800000#32), ?_, ?_⟩
  · refine (θ_run Cert.KernelIdeal.defs _ _).mono (fun r h c => ⟨?_, ?_, ?_, ?_, ?_⟩) (Cert.KernelIdeal.Gen.run_main m ρ)
    · refine ((h c).2 Cert.KernelIdeal.main_v11
        (Pipeline.mem_restRefs_of Cert.KernelIdeal.main_v11 (by decide) (by decide))).trans ?_
      rw [Cert.KernelIdeal.Acc.result_eq m c]
      funext _
      exact Cert.Bridge.kernel_result m c (xr c) (hxr c) (fun p => lab c (ix1 p)) (fun p => hlab c (ix1 p))
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1
        (Pipeline.mem_restRefs_of Cert.KernelIdeal.main_arg1 (by decide) (by decide))).trans
        (Cert.KernelIdeal.Gen.W_main_arg1 m (Cert.KernelIdeal.Gen.dats m) c)
    · exact ((h c).2 Cert.KernelIdeal.main_arg2
        (Pipeline.mem_restRefs_of Cert.KernelIdeal.main_arg2 (by decide) (by decide))).trans
        (Cert.KernelIdeal.Gen.W_main_arg2 m (Cert.KernelIdeal.Gen.dats m) c)
    · exact ((h c).2 Cert.KernelIdeal.main_arg3
        (Pipeline.mem_restRefs_of Cert.KernelIdeal.main_arg3 (by decide) (by decide))).trans
        (Cert.KernelIdeal.Gen.W_main_arg3 m (Cert.KernelIdeal.Gen.dats m) c)
  · refine (θ_run Cert.ReferenceIdeal.defs _ _).mono (fun r h c => ⟨(h c).1.trans ?_, (h c).2⟩)
      (Cert.ReferenceIdeal.Value.run (F := Ideal) m' ρ')
    obtain ⟨e0, e1, e2, e3⟩ := hagree c
    rw [Cert.ReferenceIdeal.Read.val_main_v55_eq, e0, e1, e2, e3]
    funext i
    exact Cert.Bridge.reference_result _ _ _ _ (fun p => lab c (ix1 p)) (fun p => hlab c (ix1 p)) i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
